-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50 : Shape := ⟨2, ![2048, 50]⟩
abbrev S1000000x128 : Shape := ⟨2, ![1000000, 128]⟩
abbrev S12502x128 : Shape := ⟨2, ![12502, 128]⟩
abbrev S64x128 : Shape := ⟨2, ![64, 128]⟩
abbrev S12500x64 : Shape := ⟨2, ![12500, 64]⟩
abbrev S32x128 : Shape := ⟨2, ![32, 128]⟩
abbrev S25000x32 : Shape := ⟨2, ![25000, 32]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S12502x128 : S_.BroadcastsInDim S12502x128 (![] : Fin 0 → Fin S12502x128.rank)
  reducesTo_S12502x128_S_d0_1 : S12502x128.ReducesTo [0, 1] S_
  bcast_S_S64x128 : S_.BroadcastsInDim S64x128 (![] : Fin 0 → Fin S64x128.rank)
  reducesTo_S64x128_S_d0_1 : S64x128.ReducesTo [0, 1] S_
  bcast_S_S12500x64 : S_.BroadcastsInDim S12500x64 (![] : Fin 0 → Fin S12500x64.rank)
  reducesTo_S12500x64_S_d0_1 : S12500x64.ReducesTo [0, 1] S_
  bcast_S_S32x128 : S_.BroadcastsInDim S32x128 (![] : Fin 0 → Fin S32x128.rank)
  reducesTo_S32x128_S_d0_1 : S32x128.ReducesTo [0, 1] S_
  bcast_S_S25000x32 : S_.BroadcastsInDim S25000x32 (![] : Fin 0 → Fin S25000x32.rank)
  reducesTo_S25000x32_S_d0_1 : S25000x32.ReducesTo [0, 1] S_

variable [Facts]

def fn_part1 {F : FTy → Type} [FloatOps F] (main_arg5 : FVec F S32x128 .f32) (main_arg6 : FVec F S25000x32 .f32) (main_v13 : IVec S_ 1) (main_v16 : IVec S12500x64 1) : IVec S_ 1 :=
  let main_c_5 : IVec S_ 1 := constantI S_ 1 1#1
  let main_v17 : IVec S_ 1 := (fun x v => Host.reduce IntOp.andi x v reducesTo_S12500x64_S_d0_1 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S25000x32 .f32 := Host.absf main_arg6
  let main_cst_8 : FVec F S_ .f32 := constant S_ .f32 0x7F800000#32
  let main_v25 : FVec F S25000x32 .f32 := broadcastInDim S25000x32 ![] bcast_S_S25000x32 main_cst_8
  let main_v26 : IVec S25000x32 1 := cmpf .olt main_v24 main_v25
  let main_c_9 : IVec S_ 1 := constantI S_ 1 1#1
  let main_v27 : IVec S_ 1 := (fun x v => Host.reduce IntOp.andi x v reducesTo_S25000x32_S_d0_1 h_S_) main_v26 main_c_9
  let main_v28 : IVec S_ 1 := andi main_v23 main_v27
  main_v28

def fn {F : FTy → Type} [FloatOps F] (main_arg0 : IVec S2048x50 32) (main_arg1 : FVec F S1000000x128 .f32) (main_arg2 : FVec F S12502x128 .f32) (main_arg3 : FVec F S64x128 .f32) (main_arg4 : FVec F S12500x64 .f32) (main_arg5 : FVec F S32x128 .f32) (main_arg6 : FVec F S25000x32 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S12502x128 .f32 := Host.absf main_arg2
  let main_cst_0 : FVec F S_ .f32 := constant S_ .f32 0x7F800000#32
  let main_v5 : FVec F S12502x128 .f32 := broadcastInDim S12502x128 ![] bcast_S_S12502x128 main_cst_0
  let main_v6 : IVec S12502x128 1 := cmpf .olt main_v4 main_v5
  let main_c_1 : IVec S_ 1 := constantI S_ 1 1#1
  let main_v7 : IVec S_ 1 := (fun x v => Host.reduce IntOp.andi x v reducesTo_S12502x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S12500x64 .f32 := Host.absf main_arg4
  let main_cst_4 : FVec F S_ .f32 := constant S_ .f32 0x7F800000#32
  let main_v15 : FVec F S12500x64 .f32 := broadcastInDim S12500x64 ![] bcast_S_S12500x64 main_cst_4
  let main_v16 : IVec S12500x64 1 := cmpf .olt main_v14 main_v15
  fn_part1 (F := F) main_arg5 main_arg6 main_v13 main_v16
-- ==== Kernel.lean ====
abbrev S2048x50 : Shape := ⟨2, ![2048, 50]⟩
abbrev S1000000x128 : Shape := ⟨2, ![1000000, 128]⟩
abbrev S12502x128 : Shape := ⟨2, ![12502, 128]⟩
abbrev S64x128 : Shape := ⟨2, ![64, 128]⟩
abbrev S12500x64 : Shape := ⟨2, ![12500, 64]⟩
abbrev S32x128 : Shape := ⟨2, ![32, 128]⟩
abbrev S25000x32 : Shape := ⟨2, ![25000, 32]⟩
abbrev S_ : Shape := ⟨0, ![]⟩
abbrev S2048x50x1 : Shape := ⟨3, ![2048, 50, 1]⟩
abbrev S2048x50x128 : Shape := ⟨3, ![2048, 50, 128]⟩
abbrev S2048 : Shape := ⟨1, ![2048]⟩
abbrev S2048x1 : Shape := ⟨2, ![2048, 1]⟩
abbrev S2048x128 : Shape := ⟨2, ![2048, 128]⟩
abbrev S2048x50000 : Shape := ⟨2, ![2048, 50000]⟩
abbrev S32x50000 : Shape := ⟨2, ![32, 50000]⟩
abbrev S32x12502 : Shape := ⟨2, ![32, 12502]⟩
abbrev S32 : Shape := ⟨1, ![32]⟩
abbrev S32x1 : Shape := ⟨2, ![32, 1]⟩
abbrev S32x12500 : Shape := ⟨2, ![32, 12500]⟩
abbrev S32x64 : Shape := ⟨2, ![32, 64]⟩
abbrev S32x32 : Shape := ⟨2, ![32, 32]⟩
abbrev S32x25000 : Shape := ⟨2, ![32, 25000]⟩

abbrev nBuf : Space → Nat
  | .hbm => 42
  | .vmem => 9
  | .smem => 0
  | _ => 0

abbrev bufTy : (tb : Table) → Fin (tcTables nBuf tb) → BufTy
  | .hbm, ⟨0, _⟩ => ⟨S2048x50, .i32⟩
  | .hbm, ⟨1, _⟩ => ⟨S1000000x128, .f32⟩
  | .hbm, ⟨2, _⟩ => ⟨S12502x128, .f32⟩
  | .hbm, ⟨3, _⟩ => ⟨S64x128, .f32⟩
  | .hbm, ⟨4, _⟩ => ⟨S12500x64, .f32⟩
  | .hbm, ⟨5, _⟩ => ⟨S32x128, .f32⟩
  | .hbm, ⟨6, _⟩ => ⟨S25000x32, .f32⟩
  | .hbm, ⟨7, _⟩ => ⟨S_, .i32⟩
  | .hbm, ⟨8, _⟩ => ⟨S2048x50, .i32⟩
  | .hbm, ⟨9, _⟩ => ⟨S2048x50, .i1⟩
  | .hbm, ⟨10, _⟩ => ⟨S_, .i32⟩
  | .hbm, ⟨11, _⟩ => ⟨S2048x50, .i32⟩
  | .hbm, ⟨12, _⟩ => ⟨S2048x50, .i1⟩
  | .hbm, ⟨13, _⟩ => ⟨S_, .i32⟩
  | .hbm, ⟨14, _⟩ => ⟨S2048x50, .i32⟩
  | .hbm, ⟨15, _⟩ => ⟨S2048x50, .i32⟩
  | .hbm, ⟨16, _⟩ => ⟨S2048x50, .i32⟩
  | .hbm, ⟨17, _⟩ => ⟨S2048x50x1, .i32⟩
  | .hbm, ⟨18, _⟩ => ⟨S2048x50x128, .f32⟩
  | .hbm, ⟨19, _⟩ => ⟨S2048x50x1, .i1⟩
  | .hbm, ⟨20, _⟩ => ⟨S2048x50x1, .f32⟩
  | .hbm, ⟨21, _⟩ => ⟨S2048x50x128, .f32⟩
  | .hbm, ⟨22, _⟩ => ⟨S2048x50x128, .f32⟩
  | .hbm, ⟨23, _⟩ => ⟨S2048x50, .i32⟩
  | .hbm, ⟨24, _⟩ => ⟨S_, .i32⟩
  | .hbm, ⟨25, _⟩ => ⟨S2048, .i32⟩
  | .hbm, ⟨26, _⟩ => ⟨S2048x1, .i32⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .f32⟩
  | .hbm, ⟨31, _⟩ => ⟨S_, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S2048x128, .bf16⟩
  | .hbm, ⟨36, _⟩ => ⟨S12502x128, .bf16⟩
  | .hbm, ⟨37, _⟩ => ⟨S64x128, .bf16⟩
  | .hbm, ⟨38, _⟩ => ⟨S12500x64, .bf16⟩
  | .hbm, ⟨39, _⟩ => ⟨S32x128, .bf16⟩
  | .hbm, ⟨40, _⟩ => ⟨S25000x32, .bf16⟩
  | .hbm, ⟨41, _⟩ => ⟨S2048x50000, .f32⟩
  | .local _ .vmem, ⟨0, _⟩ => ⟨S32x128, .bf16⟩
  | .local _ .vmem, ⟨1, _⟩ => ⟨S32x128, .bf16⟩
  | .local _ .vmem, ⟨2, _⟩ => ⟨S12502x128, .bf16⟩
  | .local _ .vmem, ⟨3, _⟩ => ⟨S64x128, .bf16⟩
  | .local _ .vmem, ⟨4, _⟩ => ⟨S12500x64, .bf16⟩
  | .local _ .vmem, ⟨5, _⟩ => ⟨S32x128, .bf16⟩
  | .local _ .vmem, ⟨6, _⟩ => ⟨S25000x32, .bf16⟩
  | .local _ .vmem, ⟨7, _⟩ => ⟨S32x50000, .f32⟩
  | .local _ .vmem, ⟨8, _⟩ => ⟨S32x50000, .f32⟩
  | _, _ => ⟨S2048x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12502x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12500x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S25000x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x50000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S2048x50 : S_.BroadcastsInDim S2048x50 (![] : Fin 0 → Fin S2048x50.rank)
  bcast_S2048x50_S2048x50x1_0_1 : S2048x50.BroadcastsInDim S2048x50x1 (![0, 1] : Fin 2 → Fin S2048x50x1.rank)
  bcast_S2048x50x1_S2048x50x128_0_1_2 : S2048x50x1.BroadcastsInDim S2048x50x128 (![0, 1, 2] : Fin 3 → Fin S2048x50x128.rank)
  natLt_1_32 : 1 < 32
  reducesTo_S2048x50_S2048_d1 : S2048x50.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  reducesTo_S2048x50x128_S2048x128_d1 : S2048x50x128.ReducesTo [1] S2048x128
  bcast_S2048x1_S2048x128_0_1 : S2048x1.BroadcastsInDim S2048x128 (![0, 1] : Fin 2 → Fin S2048x128.rank)
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S12502x128_S12502x128_0_0 : ∀ a, (![0, 0] : Fin 2 → Nat) a + S12502x128.size a ≤ S12502x128.size a
  h_S12502x128 : 0 < S12502x128.numel
  shapeCasts_S12502x128_S12502x128 : S12502x128.ShapeCasts S12502x128
  reduces_S32x12502_S32 : S32x12502.Reduces [1] S32
  shapeCasts_S32_S32x1 : S32.ShapeCasts S32x1
  broadcasts_S32x1_S32x12502 : S32x1.Broadcasts S32x12502
  slices_S32x12502_o0_0_S32x12500 : S32x12502.Slices ![0, 0] S32x12500
  inb_S32x50000_S32x12500_0_0 : ∀ a, (![0, 0] : Fin 2 → Nat) a + S32x12500.size a ≤ S32x50000.size a
  h_S32x12500 : 0 < S32x12500.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S12500x64_S12500x64_0_0 : ∀ a, (![0, 0] : Fin 2 → Nat) a + S12500x64.size a ≤ S12500x64.size a
  h_S12500x64 : 0 < S12500x64.numel
  shapeCasts_S12500x64_S12500x64 : S12500x64.ShapeCasts S12500x64
  reduces_S32x12500_S32 : S32x12500.Reduces [1] S32
  broadcasts_S32x1_S32x12500 : S32x1.Broadcasts S32x12500
  slices_S32x12502_o0_12500_S32x1 : S32x12502.Slices ![0, 12500] S32x1
  inb_S32x50000_S32x12500_0_12500 : ∀ a, (![0, 12500] : Fin 2 → Nat) a + S32x12500.size a ≤ S32x50000.size a
  inb_S25000x32_S25000x32_0_0 : ∀ a, (![0, 0] : Fin 2 → Nat) a + S25000x32.size a ≤ S25000x32.size a
  h_S25000x32 : 0 < S25000x32.numel
  shapeCasts_S25000x32_S25000x32 : S25000x32.ShapeCasts S25000x32
  reduces_S32x25000_S32 : S32x25000.Reduces [1] S32
  broadcasts_S32x1_S32x25000 : S32x1.Broadcasts S32x25000
  slices_S32x12502_o0_12501_S32x1 : S32x12502.Slices ![0, 12501] S32x1
  inb_S32x50000_S32x25000_0_25000 : ∀ a, (![0, 25000] : Fin 2 → Nat) a + S32x25000.size a ≤ S32x50000.size a
  h_S32x25000 : 0 < S32x25000.numel
  gather_S1000000x128_S2048x50x1_S2048x50x128_2_0_n_n_0_2_1128_wf : GatherDims.WF S1000000x128 S2048x50x1 S2048x50x128 [2] [0] [] [0] [] 2 ![1, 128]
  dot_S32x128_S12502x128_S32x12502_1_1_0_0_n_n_wf : DotDims.WF S32x128 S12502x128 S32x12502 [1] [1] [0] [0] [] []
  dot_S32x128_S64x128_S32x64_1_1_0_0_n_n_wf : DotDims.WF S32x128 S64x128 S32x64 [1] [1] [0] [0] [] []
  dot_S32x64_S12500x64_S32x12500_1_1_0_0_n_n_wf : DotDims.WF S32x64 S12500x64 S32x12500 [1] [1] [0] [0] [] []
  dot_S32x128_S32x128_S32x32_1_1_0_0_n_n_wf : DotDims.WF S32x128 S32x128 S32x32 [1] [1] [0] [0] [] []
  dot_S32x32_S25000x32_S32x25000_1_1_0_0_n_n_wf : DotDims.WF S32x32 S25000x32 S32x25000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S2048x128.size a
  hwx0_0 : ∀ i : grid0.Coords, EltTy.bits .bf16 = 32 ∨ (Rect.block (s := S2048x128) S32x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12502x128.size a ≤ S12502x128.size a
  hwx0_1 : ∀ i : grid0.Coords, EltTy.bits .bf16 = 32 ∨ (Rect.block (s := S12502x128) S12502x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12500x64.size a ≤ S12500x64.size a
  hwx0_3 : ∀ i : grid0.Coords, EltTy.bits .bf16 = 32 ∨ (Rect.block (s := S12500x64) S12500x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .bf16 = 32 ∨ (Rect.block (s := S32x128) S32x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S25000x32.size a ≤ S25000x32.size a
  hwx0_5 : ∀ i : grid0.Coords, EltTy.bits .bf16 = 32 ∨ (Rect.block (s := S25000x32) S25000x32.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x50000.size a ≤ S2048x50000.size a
  hwx0_6 : ∀ i : grid0.Coords, EltTy.bits .f32 = 32 ∨ (Rect.block (s := S2048x50000) S32x50000.size (cc0_transform_6 i) (hinb0_6 i)).WholeWords (EltTy.packing .f32)

variable [Facts₀]

def gather_S1000000x128_S2048x50x1_S2048x50x128_2_0_n_n_0_2_1128 : GatherDims S1000000x128 S2048x50x1 S2048x50x128 where
  offsetDims := [2]
  collapsedSliceDims := [0]
  operandBatchingDims := []
  startIndicesBatchingDims := []
  startIndexMap := [0]
  indexVectorDim := 2
  sliceSizes := ![1, 128]
  wf := gather_S1000000x128_S2048x50x1_S2048x50x128_2_0_n_n_0_2_1128_wf
def dot_S32x128_S12502x128_S32x12502_1_1_0_0_n_n : DotDims S32x128 S12502x128 S32x12502 where
  lhsContracting := [1]
  rhsContracting := [1]
  lhsNonContracting := [0]
  rhsNonContracting := [0]
  lhsBatch := []
  rhsBatch := []
  wf := dot_S32x128_S12502x128_S32x12502_1_1_0_0_n_n_wf
def dot_S32x128_S64x128_S32x64_1_1_0_0_n_n : DotDims S32x128 S64x128 S32x64 where
  lhsContracting := [1]
  rhsContracting := [1]
  lhsNonContracting := [0]
  rhsNonContracting := [0]
  lhsBatch := []
  rhsBatch := []
  wf := dot_S32x128_S64x128_S32x64_1_1_0_0_n_n_wf
def dot_S32x64_S12500x64_S32x12500_1_1_0_0_n_n : DotDims S32x64 S12500x64 S32x12500 where
  lhsContracting := [1]
  rhsContracting := [1]
  lhsNonContracting := [0]
  rhsNonContracting := [0]
  lhsBatch := []
  rhsBatch := []
  wf := dot_S32x64_S12500x64_S32x12500_1_1_0_0_n_n_wf
def dot_S32x128_S32x128_S32x32_1_1_0_0_n_n : DotDims S32x128 S32x128 S32x32 where
  lhsContracting := [1]
  rhsContracting := [1]
  lhsNonContracting := [0]
  rhsNonContracting := [0]
  lhsBatch := []
  rhsBatch := []
  wf := dot_S32x128_S32x128_S32x32_1_1_0_0_n_n_wf
def dot_S32x32_S25000x32_S32x25000_1_1_0_0_n_n : DotDims S32x32 S25000x32 S32x25000 where
  lhsContracting := [1]
  rhsContracting := [1]
  lhsNonContracting := [0]
  rhsNonContracting := [0]
  lhsBatch := []
  rhsBatch := []
  wf := dot_S32x32_S25000x32_S32x25000_1_1_0_0_n_n_wf

abbrev win0_0 : Pipeline.Window sig grid0 :=
  Pipeline.Window.ofSpec (Memref.whole main_v22) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S12502x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S12500x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S25000x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S32x50000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x50 : Shape := ⟨2, ![2048, 50]⟩
abbrev S1000000x128 : Shape := ⟨2, ![1000000, 128]⟩
abbrev S12502x128 : Shape := ⟨2, ![12502, 128]⟩
abbrev S64x128 : Shape := ⟨2, ![64, 128]⟩
abbrev S12500x64 : Shape := ⟨2, ![12500, 64]⟩
abbrev S32x128 : Shape := ⟨2, ![32, 128]⟩
abbrev S25000x32 : Shape := ⟨2, ![25000, 32]⟩
abbrev S_ : Shape := ⟨0, ![]⟩
abbrev S2048x50x1 : Shape := ⟨3, ![2048, 50, 1]⟩
abbrev S2048x50x128 : Shape := ⟨3, ![2048, 50, 128]⟩
abbrev S2048 : Shape := ⟨1, ![2048]⟩
abbrev S2048x1 : Shape := ⟨2, ![2048, 1]⟩
abbrev S2048x128 : Shape := ⟨2, ![2048, 128]⟩
abbrev S128x12502 : Shape := ⟨2, ![128, 12502]⟩
abbrev S2048x12502 : Shape := ⟨2, ![2048, 12502]⟩
abbrev S2048x12500 : Shape := ⟨2, ![2048, 12500]⟩
abbrev S128x64 : Shape := ⟨2, ![128, 64]⟩
abbrev S2048x64 : Shape := ⟨2, ![2048, 64]⟩
abbrev S64x12500 : Shape := ⟨2, ![64, 12500]⟩
abbrev S128x32 : Shape := ⟨2, ![128, 32]⟩
abbrev S2048x32 : Shape := ⟨2, ![2048, 32]⟩
abbrev S32x25000 : Shape := ⟨2, ![32, 25000]⟩
abbrev S2048x25000 : Shape := ⟨2, ![2048, 25000]⟩
abbrev S2048x50000 : Shape := ⟨2, ![2048, 50000]⟩

abbrev nBuf : Space → Nat
  | .hbm => 98
  | .vmem => 0
  | .smem => 0
  | _ => 0

abbrev bufTy : (tb : Table) → Fin (tcTables nBuf tb) → BufTy
  | .hbm, ⟨0, _⟩ => ⟨S2048x50, .i32⟩
  | .hbm, ⟨1, _⟩ => ⟨S1000000x128, .f32⟩
  | .hbm, ⟨2, _⟩ => ⟨S12502x128, .f32⟩
  | .hbm, ⟨3, _⟩ => ⟨S64x128, .f32⟩
  | .hbm, ⟨4, _⟩ => ⟨S12500x64, .f32⟩
  | .hbm, ⟨5, _⟩ => ⟨S32x128, .f32⟩
  | .hbm, ⟨6, _⟩ => ⟨S25000x32, .f32⟩
  | .hbm, ⟨7, _⟩ => ⟨S_, .i32⟩
  | .hbm, ⟨8, _⟩ => ⟨S2048x50, .i32⟩
  | .hbm, ⟨9, _⟩ => ⟨S2048x50, .i1⟩
  | .hbm, ⟨10, _⟩ => ⟨S_, .i32⟩
  | .hbm, ⟨11, _⟩ => ⟨S2048x50, .i32⟩
  | .hbm, ⟨12, _⟩ => ⟨S2048x50, .i1⟩
  | .hbm, ⟨13, _⟩ => ⟨S_, .i32⟩
  | .hbm, ⟨14, _⟩ => ⟨S2048x50, .i32⟩
  | .hbm, ⟨15, _⟩ => ⟨S2048x50, .i32⟩
  | .hbm, ⟨16, _⟩ => ⟨S2048x50, .i32⟩
  | .hbm, ⟨17, _⟩ => ⟨S2048x50x1, .i32⟩
  | .hbm, ⟨18, _⟩ => ⟨S2048x50x128, .f32⟩
  | .hbm, ⟨19, _⟩ => ⟨S2048x50x1, .i1⟩
  | .hbm, ⟨20, _⟩ => ⟨S2048x50x1, .f32⟩
  | .hbm, ⟨21, _⟩ => ⟨S2048x50x128, .f32⟩
  | .hbm, ⟨22, _⟩ => ⟨S2048x50x128, .f32⟩
  | .hbm, ⟨23, _⟩ => ⟨S2048x50, .i32⟩
  | .hbm, ⟨24, _⟩ => ⟨S_, .i32⟩
  | .hbm, ⟨25, _⟩ => ⟨S2048, .i32⟩
  | .hbm, ⟨26, _⟩ => ⟨S2048x1, .i32⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .f32⟩
  | .hbm, ⟨31, _⟩ => ⟨S_, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S128x12502, .f32⟩
  | .hbm, ⟨36, _⟩ => ⟨S2048x12502, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048x1, .f32⟩
  | .hbm, ⟨43, _⟩ => ⟨S2048x12502, .f32⟩
  | .hbm, ⟨44, _⟩ => ⟨S2048x12502, .f32⟩
  | .hbm, ⟨45, _⟩ => ⟨S2048x12502, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x1, .f32⟩
  | .hbm, ⟨50, _⟩ => ⟨S2048x12502, .f32⟩
  | .hbm, ⟨51, _⟩ => ⟨S2048x12502, .f32⟩
  | .hbm, ⟨52, _⟩ => ⟨S2048x12500, .f32⟩
  | .hbm, ⟨53, _⟩ => ⟨S128x64, .f32⟩
  | .hbm, ⟨54, _⟩ => ⟨S2048x64, .f32⟩
  | .hbm, ⟨55, _⟩ => ⟨S64x12500, .f32⟩
  | .hbm, ⟨56, _⟩ => ⟨S2048x12500, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S2048x1, .f32⟩
  | .hbm, ⟨63, _⟩ => ⟨S2048x12500, .f32⟩
  | .hbm, ⟨64, _⟩ => ⟨S2048x12500, .f32⟩
  | .hbm, ⟨65, _⟩ => ⟨S2048x12500, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1, .f32⟩
  | .hbm, ⟨70, _⟩ => ⟨S2048x12500, .f32⟩
  | .hbm, ⟨71, _⟩ => ⟨S2048x12500, .f32⟩
  | .hbm, ⟨72, _⟩ => ⟨S2048x1, .f32⟩
  | .hbm, ⟨73, _⟩ => ⟨S2048x12500, .f32⟩
  | .hbm, ⟨74, _⟩ => ⟨S2048x12500, .f32⟩
  | .hbm, ⟨75, _⟩ => ⟨S128x32, .f32⟩
  | .hbm, ⟨76, _⟩ => ⟨S2048x32, .f32⟩
  | .hbm, ⟨77, _⟩ => ⟨S32x25000, .f32⟩
  | .hbm, ⟨78, _⟩ => ⟨S2048x25000, .f32⟩
  | .hbm, ⟨79, _⟩ => ⟨S_, .f32⟩
  | .hbm, ⟨80, _⟩ => ⟨S2048, .f32⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S2048x1, .f32⟩
  | .hbm, ⟨85, _⟩ => ⟨S2048x25000, .f32⟩
  | .hbm, ⟨86, _⟩ => ⟨S2048x25000, .f32⟩
  | .hbm, ⟨87, _⟩ => ⟨S2048x25000, .f32⟩
  | .hbm, ⟨88, _⟩ => ⟨S_, .f32⟩
  | .hbm, ⟨89, _⟩ => ⟨S2048, .f32⟩
  | .hbm, ⟨90, _⟩ => ⟨S2048x1, .f32⟩
  | .hbm, ⟨91, _⟩ => ⟨S2048x1, .f32⟩
  | .hbm, ⟨92, _⟩ => ⟨S2048x25000, .f32⟩
  | .hbm, ⟨93, _⟩ => ⟨S2048x25000, .f32⟩
  | .hbm, ⟨94, _⟩ => ⟨S2048x1, .f32⟩
  | .hbm, ⟨95, _⟩ => ⟨S2048x25000, .f32⟩
  | .hbm, ⟨96, _⟩ => ⟨S2048x25000, .f32⟩
  | .hbm, ⟨97, _⟩ => ⟨S2048x50000, .f32⟩
  | _, _ => ⟨S2048x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_call0_cst_0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_cst_1 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call1_cst : Ref sig .tc := ⟨.hbm, 57, rfl⟩
abbrev main_call1_v0 : Ref sig .tc := ⟨.hbm, 58, rfl⟩
abbrev main_call1_cst_0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_cst_1 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call2_cst : Ref sig .tc := ⟨.hbm, 79, rfl⟩
abbrev main_call2_v0 : Ref sig .tc := ⟨.hbm, 80, rfl⟩
abbrev main_call2_cst_0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_cst_1 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩

abbrev nD : Nat := 1
abbrev τ : Topo := Topo.v7x

variable {F : FTy → Type} [FloatOps F]

class Facts₀ : Prop where
  bcast_S_S2048x50 : S_.BroadcastsInDim S2048x50 (![] : Fin 0 → Fin S2048x50.rank)
  bcast_S2048x50_S2048x50x1_0_1 : S2048x50.BroadcastsInDim S2048x50x1 (![0, 1] : Fin 2 → Fin S2048x50x1.rank)
  bcast_S2048x50x1_S2048x50x128_0_1_2 : S2048x50x1.BroadcastsInDim S2048x50x128 (![0, 1, 2] : Fin 3 → Fin S2048x50x128.rank)
  natLt_1_32 : 1 < 32
  reducesTo_S2048x50_S2048_d1 : S2048x50.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  reducesTo_S2048x50x128_S2048x128_d1 : S2048x50x128.ReducesTo [1] S2048x128
  bcast_S2048x1_S2048x128_0_1 : S2048x1.BroadcastsInDim S2048x128 (![0, 1] : Fin 2 → Fin S2048x128.rank)
  transposes_S12502x128_S128x12502_1_0 : S12502x128.Transposes [1, 0] S128x12502
  reducesTo_S2048x12502_S2048_d1 : S2048x12502.ReducesTo [1] S2048
  bcast_S_S2048 : S_.BroadcastsInDim S2048 (![] : Fin 0 → Fin S2048.rank)
  bcast_S2048x1_S2048x12502_0_1 : S2048x1.BroadcastsInDim S2048x12502 (![0, 1] : Fin 2 → Fin S2048x12502.rank)
  slices_S2048x12502_S2048x12500_0_0 : S2048x12502.Slices ![0, 0] S2048x12500
  transposes_S64x128_S128x64_1_0 : S64x128.Transposes [1, 0] S128x64
  transposes_S12500x64_S64x12500_1_0 : S12500x64.Transposes [1, 0] S64x12500
  reducesTo_S2048x12500_S2048_d1 : S2048x12500.ReducesTo [1] S2048
  bcast_S2048x1_S2048x12500_0_1 : S2048x1.BroadcastsInDim S2048x12500 (![0, 1] : Fin 2 → Fin S2048x12500.rank)
  slices_S2048x12502_S2048x1_0_12500 : S2048x12502.Slices ![0, 12500] S2048x1
  transposes_S32x128_S128x32_1_0 : S32x128.Transposes [1, 0] S128x32
  transposes_S25000x32_S32x25000_1_0 : S25000x32.Transposes [1, 0] S32x25000
  reducesTo_S2048x25000_S2048_d1 : S2048x25000.ReducesTo [1] S2048
  bcast_S2048x1_S2048x25000_0_1 : S2048x1.BroadcastsInDim S2048x25000 (![0, 1] : Fin 2 → Fin S2048x25000.rank)
  slices_S2048x12502_S2048x1_0_12501 : S2048x12502.Slices ![0, 12501] S2048x1
  concatenates_S2048x12500_S2048x12500_S2048x25000_S2048x50000_d1 : Shape.Concatenates [S2048x12500, S2048x12500, S2048x25000] S2048x50000 1
  gather_S1000000x128_S2048x50x1_S2048x50x128_2_0_n_n_0_2_1128_wf : GatherDims.WF S1000000x128 S2048x50x1 S2048x50x128 [2] [0] [] [0] [] 2 ![1, 128]
  dot_S2048x128_S128x12502_S2048x12502_1_0_0_1_n_n_wf : DotDims.WF S2048x128 S128x12502 S2048x12502 [1] [0] [0] [1] [] []
  dot_S2048x128_S128x64_S2048x64_1_0_0_1_n_n_wf : DotDims.WF S2048x128 S128x64 S2048x64 [1] [0] [0] [1] [] []
  dot_S2048x64_S64x12500_S2048x12500_1_0_0_1_n_n_wf : DotDims.WF S2048x64 S64x12500 S2048x12500 [1] [0] [0] [1] [] []
  dot_S2048x128_S128x32_S2048x32_1_0_0_1_n_n_wf : DotDims.WF S2048x128 S128x32 S2048x32 [1] [0] [0] [1] [] []
  dot_S2048x32_S32x25000_S2048x25000_1_0_0_1_n_n_wf : DotDims.WF S2048x32 S32x25000 S2048x25000 [1] [0] [0] [1] [] []

variable [Facts₀]

def gather_S1000000x128_S2048x50x1_S2048x50x128_2_0_n_n_0_2_1128 : GatherDims S1000000x128 S2048x50x1 S2048x50x128 where
  offsetDims := [2]
  collapsedSliceDims := [0]
  operandBatchingDims := []
  startIndicesBatchingDims := []
  startIndexMap := [0]
  indexVectorDim := 2
  sliceSizes := ![1, 128]
  wf := gather_S1000000x128_S2048x50x1_S2048x50x128_2_0_n_n_0_2_1128_wf
def dot_S2048x128_S128x12502_S2048x12502_1_0_0_1_n_n : DotDims S2048x128 S128x12502 S2048x12502 where
  lhsContracting := [1]
  rhsContracting := [0]
  lhsNonContracting := [0]
  rhsNonContracting := [1]
  lhsBatch := []
  rhsBatch := []
  wf := dot_S2048x128_S128x12502_S2048x12502_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x12500_S2048x12500_1_0_0_1_n_n : DotDims S2048x64 S64x12500 S2048x12500 where
  lhsContracting := [1]
  rhsContracting := [0]
  lhsNonContracting := [0]
  rhsNonContracting := [1]
  lhsBatch := []
  rhsBatch := []
  wf := dot_S2048x64_S64x12500_S2048x12500_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x32_S32x25000_S2048x25000_1_0_0_1_n_n : DotDims S2048x32 S32x25000 S2048x25000 where
  lhsContracting := [1]
  rhsContracting := [0]
  lhsNonContracting := [0]
  rhsNonContracting := [1]
  lhsBatch := []
  rhsBatch := []
  wf := dot_S2048x32_S32x25000_S2048x25000_1_0_0_1_n_n_wf

class Facts : Prop extends Facts₀ where

variable [Facts]
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.Spec.lean ====
/-
  The function both programs compute, stated once over plain arrays of extended reals.

  A row x of the pooled embeddings (128 entries) is scored against a weight matrix stored [N, K] by
  z j = Σ k, x k · W j k.  The row log-softmax of a score vector z is
      lsm z j = (z j − M) − log (Σ k, exp (z k − M)),   M = the maximum of z taken from −∞.
  The adaptive head has 12500 shortlist classes and two cluster scores (columns 12500 and 12501); each tail
  cluster projects the row to a smaller width, scores it against its own output matrix, and adds the head's
  log-probability of that cluster:
      out j = lsm head j                                   for j < 12500,
      out j = lsm tail0 (j − 12500) + lsm head 12500       for 12500 ≤ j < 25000,
      out j = lsm tail1 (j − 25000) + lsm head 12501       for 25000 ≤ j.
  The column is carried as a natural number, so that the three ranges are met by plain arithmetic.
-/
import Idealize.ShloMosaic.Lib.ValueIdx
import Idealize.ShloMosaic.PureOps.Ideal.Laws

noncomputable section

open scoped BigOperators

namespace Cert.AdaptiveSoftmax

open Idealize.ShloMosaic Idealize.ShloMosaic.ValueIdx

/-- A rank-2 array of extended reals with literal extents. -/
abbrev Arr (a b : ℕ) := (⟨2, ![a, b]⟩ : Shape).Idx → EReal

/-- The value every row maximum starts from: the f32 pattern of −∞, never evaluated. -/
abbrev negInf : EReal := Ideal.ofBits .f32 0xFF800000#32

/-- A row's maximum, folded from −∞. -/
def rowMax {n : ℕ} (z : Fin n → EReal) : EReal := (Finset.univ : Finset (Fin n)).fold max negInf z

/-- Taking the maximum with −∞ once more changes nothing: the fold already starts there. -/
theorem max_negInf_rowMax {n : ℕ} (z : Fin n → EReal) : max negInf (rowMax z) = rowMax z :=
  max_eq_right ((Finset.le_fold_max _).mpr (Or.inl le_rfl))

/-- The row log-softmax: shift by the maximum, subtract the log of the sum of exponentials of the shifted row. -/
def lsm {n : ℕ} (z : Fin n → EReal) (j : Fin n) : EReal :=
  (z j - rowMax z) - Ideal.log (∑ k, Ideal.exp (z k - rowMax z))

/-- The same at a natural column (zero past the row's end, which no use reaches). -/
def lsmAt {n : ℕ} (z : Fin n → EReal) (j : ℕ) : EReal := if h : j < n then lsm z ⟨j, h⟩ else 0

theorem lsmAt_val {n : ℕ} (z : Fin n → EReal) (q : Fin n) : lsmAt z q.val = lsm z q := by
  unfold lsmAt; rw [dif_pos q.isLt]

theorem lsmAt_of_lt {n : ℕ} (z : Fin n → EReal) (j : ℕ) (h : j < n) : lsmAt z j = lsm z ⟨j, h⟩ := by
  unfold lsmAt; rw [dif_pos h]

/-- A row against one weight row. -/
def dotRow {K : ℕ} (x w : Fin K → EReal) : EReal := ∑ k, x k * w k

/-- The scores of a row against a weight matrix stored [N, K]. -/
def logits {N K : ℕ} (W : Arr N K) (x : Fin K → EReal) : Fin N → EReal :=
  fun j => dotRow x (fun k => W (ix2 j k))

/-- One output row of the adaptive log-softmax at column j, from the pooled row. -/
def rowOut (HW : Arr 12502 128) (T0P : Arr 64 128) (T0O : Arr 12500 64) (T1P : Arr 32 128) (T1O : Arr 25000 32)
    (x : Fin 128 → EReal) (j : ℕ) : EReal :=
  if j < 12500 then lsmAt (logits HW x) j
  else if j < 25000 then lsmAt (logits T0O (logits T0P x)) (j - 12500) + lsmAt (logits HW x) 12500
  else lsmAt (logits T1O (logits T1P x)) (j - 25000) + lsmAt (logits HW x) 12501

/-- The whole output array from the pooled array and the five weight arrays. -/
def G (P : Arr 2048 128) (HW : Arr 12502 128) (T0P : Arr 64 128) (T0O : Arr 12500 64) (T1P : Arr 32 128)
    (T1O : Arr 25000 32) : Arr 2048 50000 :=
  fun i => rowOut HW T0P T0O T1P T1O (fun k => P (ix2 (show Fin 2048 from i 0) k)) (i 1).val

theorem G_ix2 (P : Arr 2048 128) (HW : Arr 12502 128) (T0P : Arr 64 128) (T0O : Arr 12500 64) (T1P : Arr 32 128)
    (T1O : Arr 25000 32) (r : Fin 2048) (j : Fin 50000) :
    G P HW T0P T0O T1P T1O (ix2 r j) = rowOut HW T0P T0O T1P T1O (fun k => P (ix2 r k)) j.val := rfl

/-- The output at an index whose coordinates are r and n. -/
theorem G_of (P : Arr 2048 128) (HW : Arr 12502 128) (T0P : Arr 64 128) (T0O : Arr 12500 64) (T1P : Arr 32 128)
    (T1O : Arr 25000 32) (y : (⟨2, ![2048, 50000]⟩ : Shape).Idx) (r : Fin 2048) (n : ℕ)
    (h0 : (y 0).val = r.val) (h1 : (y 1).val = n) :
    G P HW T0P T0O T1P T1O y = rowOut HW T0P T0O T1P T1O (fun k => P (ix2 r k)) n := by
  obtain ⟨a, b, rfl⟩ : ∃ (a : Fin 2048) (b : Fin 50000), y = ix2 a b := ⟨y 0, y 1, eq_ix2 y⟩
  have ea : a = r := Fin.ext h0
  subst ea; subst h1; rfl

/-- The three column ranges of an output row. -/
theorem rowOut_head (HW : Arr 12502 128) (T0P : Arr 64 128) (T0O : Arr 12500 64) (T1P : Arr 32 128) (T1O : Arr 25000 32)
    (x : Fin 128 → EReal) (j : ℕ) (hj : j < 12500) :
    rowOut HW T0P T0O T1P T1O x j = lsmAt (logits HW x) j := by
  unfold rowOut; rw [if_pos hj]

theorem rowOut_tail0 (HW : Arr 12502 128) (T0P : Arr 64 128) (T0O : Arr 12500 64) (T1P : Arr 32 128) (T1O : Arr 25000 32)
    (x : Fin 128 → EReal) (q : ℕ) (hq : q < 12500) :
    rowOut HW T0P T0O T1P T1O x (12500 + q)
      = lsmAt (logits T0O (logits T0P x)) q + lsmAt (logits HW x) 12500 := by
  unfold rowOut
  rw [if_neg (by omega), if_pos (by omega), Nat.add_sub_cancel_left]

theorem rowOut_tail1 (HW : Arr 12502 128) (T0P : Arr 64 128) (T0O : Arr 12500 64) (T1P : Arr 32 128) (T1O : Arr 25000 32)
    (x : Fin 128 → EReal) (q : ℕ) :
    rowOut HW T0P T0O T1P T1O x (25000 + q)
      = lsmAt (logits T1O (logits T1P x)) q + lsmAt (logits HW x) 12501 := by
  unfold rowOut
  rw [if_neg (by omega), if_neg (by omega), Nat.add_sub_cancel_left]

end Cert.AdaptiveSoftmax

end
-- ==== Proof.BlockOps.lean ====
/-
  The vector operations the kernel applies to one block of rows, read at an index (p, q) of the block.

  * A matrix product of a block x [a, K] with a weight matrix stored [N, K], both contracted on their last axis and
    accumulated into zeros, is at (p, q) the dot of row p of x with row q of the weights.
  * The chain  max over the row → broadcast → subtract → exp → sum over the row → log → broadcast → subtract
    is at (p, q) the row log-softmax of row p at column q.
-/
import proofs.«107472_j41137196761528_1_alg».proof.Proof.Spec
import proofs.«107472_j41137196761528_1_alg».proof.Proof.LibKeepdims
import Idealize.ShloMosaic.Lib.Pipeline.Value
import Idealize.ShloMosaic.Lib.ValueIdx
import Idealize.ShloMosaic.PureOps.Ideal.Laws

noncomputable section

open scoped BigOperators

namespace Cert.AdaptiveSoftmax

open Idealize.ShloMosaic Idealize.ShloMosaic.ValueIdx Idealize.ShloMosaic.Keepdims

/-! ## Row reductions of a block -/

/-- Column k inserted into the row index p is the index (p, k). -/
theorem lift_row {a n : ℕ} (hR : Shape.Reduces (⟨2, ![a, n]⟩ : Shape) [1] ⟨1, ![a]⟩) (p : Fin a) (k : Fin n) :
    hR.lift (ix1 p) k = ix2 p k := by
  funext c
  match c with
  | ⟨0, _⟩ => exact Fin.ext rfl
  | ⟨1, _⟩ => exact Fin.ext rfl

/-- A block's row maximum from −∞, at row p. -/
theorem rowMax_block {a n : ℕ} (z : FVec Ideal ⟨2, ![a, n]⟩ .f32)
    (hR : Shape.Reduces (⟨2, ![a, n]⟩ : Shape) [1] ⟨1, ![a]⟩) (hφ : FKind.Formats .f32)
    (hm : (0xFF800000#32 : BitVec 32) = FKind.maximumf.neutral .f32 hφ) (p : Fin a) :
    multiReduction .maximumf [1] ⟨1, ![a]⟩ z 0xFF800000#32 hR hφ hm (ix1 p) = rowMax (fun k : Fin n => z (ix2 p k)) := by
  rw [Ideal.multiReduction_maximumf_single]
  have e : (z ∘ hR.lift (ix1 p)) = fun k : Fin n => z (ix2 p k) := funext fun k => congrArg z (lift_row hR p k)
  rw [e]; rfl

/-- A block's row sum, at row p. -/
theorem rowSum_block {a n : ℕ} (y : FVec Ideal ⟨2, ![a, n]⟩ .f32)
    (hR : Shape.Reduces (⟨2, ![a, n]⟩ : Shape) [1] ⟨1, ![a]⟩) (hφ : FKind.Formats .f32)
    (ha : (0x00000000#32 : BitVec 32) = FKind.add.neutral .f32 hφ) (p : Fin a) :
    multiReduction .add [1] ⟨1, ![a]⟩ y 0x00000000#32 hR hφ ha (ix1 p) = ∑ k : Fin n, y (ix2 p k) := by
  rw [Ideal.multiReduction_add_single]
  exact Finset.sum_congr rfl fun k _ => congrArg y (lift_row hR p k)

/-! ## The log-softmax chain of a block -/

theorem lsm_block {a n : ℕ} (z : FVec Ideal ⟨2, ![a, n]⟩ .f32)
    (hR : Shape.Reduces (⟨2, ![a, n]⟩ : Shape) [1] ⟨1, ![a]⟩)
    (hC : (⟨1, ![a]⟩ : Shape).ShapeCasts ⟨2, ![a, 1]⟩) (hB : (⟨2, ![a, 1]⟩ : Shape).Broadcasts ⟨2, ![a, n]⟩)
    (hφ : FKind.Formats .f32) (hm : (0xFF800000#32 : BitVec 32) = FKind.maximumf.neutral .f32 hφ)
    (ha : (0x00000000#32 : BitVec 32) = FKind.add.neutral .f32 hφ) (p : Fin a) (q : Fin n) :
    subf (subf z (broadcastTo ⟨2, ![a, n]⟩ (shapeCast ⟨2, ![a, 1]⟩
            (multiReduction .maximumf [1] ⟨1, ![a]⟩ z 0xFF800000#32 hR hφ hm) hC) hB))
      (broadcastTo ⟨2, ![a, n]⟩ (log (shapeCast ⟨2, ![a, 1]⟩ (multiReduction .add [1] ⟨1, ![a]⟩
          (exp (subf z (broadcastTo ⟨2, ![a, n]⟩ (shapeCast ⟨2, ![a, 1]⟩
            (multiReduction .maximumf [1] ⟨1, ![a]⟩ z 0xFF800000#32 hR hφ hm) hC) hB)))
          0x00000000#32 hR hφ ha) hC)) hB) (ix2 p q)
      = lsm (fun k : Fin n => z (ix2 p k)) q := by
  have hM : ∀ k : Fin n, broadcastTo ⟨2, ![a, n]⟩ (shapeCast ⟨2, ![a, 1]⟩
      (multiReduction .maximumf [1] ⟨1, ![a]⟩ z 0xFF800000#32 hR hφ hm) hC) hB (ix2 p k)
        = rowMax (fun k : Fin n => z (ix2 p k)) := fun k => by
    rw [broadcastTo_a1_ab_apply, shapeCast_a_a1_apply, rowMax_block]
  have hS : multiReduction .add [1] ⟨1, ![a]⟩
          (exp (subf z (broadcastTo ⟨2, ![a, n]⟩ (shapeCast ⟨2, ![a, 1]⟩
            (multiReduction .maximumf [1] ⟨1, ![a]⟩ z 0xFF800000#32 hR hφ hm) hC) hB)))
          0x00000000#32 hR hφ ha (ix1 p)
        = ∑ k : Fin n, Ideal.exp (z (ix2 p k) - rowMax (fun k : Fin n => z (ix2 p k))) := by
    rw [rowSum_block]
    refine Finset.sum_congr rfl fun k _ => ?_
    show Ideal.exp (z (ix2 p k) - _) = _
    rw [hM k]
  show (z (ix2 p q) - _) - _ = _
  rw [hM q, broadcastTo_a1_ab_apply]
  show _ - Ideal.log (shapeCast ⟨2, ![a, 1]⟩ _ hC (ix2 p (0 : Fin 1))) = _
  rw [shapeCast_a_a1_apply, hS]
  rfl

/-! ## A column range of a block -/

/-- Columns off … off + w − 1 of a block: at (p, q), the block at (p, off + q). -/
theorem slice_cols_apply {α : Type} {a n w : ℕ} (off : ℕ) (x : (⟨2, ![a, n]⟩ : Shape).Idx → α)
    (h : (⟨2, ![a, n]⟩ : Shape).Slices ![0, off] ⟨2, ![a, w]⟩) (p : Fin a) (q : Fin w) (hq : off + q.val < n) :
    extractStridedSlice ⟨2, ![a, w]⟩ ![0, off] x h (ix2 p q) = x (ix2 p ⟨off + q.val, hq⟩) :=
  extractStridedSlice_apply _ x h _ _ (fun b => by
    match b with
    | ⟨0, _⟩ => exact (Nat.zero_add _).symm
    | ⟨1, _⟩ => rfl)

/-! ## A matrix product against a weight matrix stored row by row -/

section Matmul
variable {M K N : ℕ}

theorem contr_rank_pos : 0 < (DotDims.transposedRhs M K N).contr.rank := Nat.one_pos

theorem lhs_T_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem lhs_T_1 (i : (⟨2, ![M, N]⟩ : Shape).Idx) (q : (DotDims.transposedRhs M K N).contr.Idx) :
    ((DotDims.transposedRhs M K N).lhsIdx i q 1).val = (q ⟨0, contr_rank_pos⟩).val :=
  (DotDims.transposedRhs M K N).lhsIdx_val_of_single rfl i q
theorem rhs_T_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem rhs_T_1 (i : (⟨2, ![M, N]⟩ : Shape).Idx) (q : (DotDims.transposedRhs M K N).contr.Idx) :
    ((DotDims.transposedRhs M K N).rhsIdx i q 1).val = (q ⟨0, contr_rank_pos⟩).val :=
  (DotDims.transposedRhs M K N).rhsIdx_val_of_single rfl i q

/-- The product of x [M, K] with W [N, K] on their last axes into zeros: at (p, q), row p of x dotted with row q of W. -/
theorem matmul_T_apply {φ₁ φ₂ : FTy} (prec : Option ContractPrecision) (x : FVec Ideal ⟨2, ![M, K]⟩ φ₁)
    (w : FVec Ideal ⟨2, ![N, K]⟩ φ₂) (p : Fin M) (q : Fin N) :
    FloatOps.matmul (DotDims.transposedRhs M K N) prec x w (constant ⟨2, ![M, N]⟩ .f32 0x00000000#32) (ix2 p q)
      = ∑ k : Fin K, x (ix2 p k) * w (ix2 q k) := by
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k := funext fun a => Fin.ext (by
    match a with
    | ⟨0, _⟩ => exact lhs_T_0 _ _
    | ⟨1, _⟩ => exact (lhs_T_1 _ _).trans hk)
  have er : (DotDims.transposedRhs M K N).rhsIdx (ix2 p q) ((contrEquiv1 (DotDims.transposedRhs M K N) K rfl rfl).symm k)
      = ix2 q k := funext fun a => Fin.ext (by
    match a with
    | ⟨0, _⟩ => exact rhs_T_0 _ _
    | ⟨1, _⟩ => exact (rhs_T_1 _ _).trans hk)
  rw [el, er]

end Matmul

end Cert.AdaptiveSoftmax

end
-- ==== Proof.KernelPay.lean ====
/-
  The three values the kernel body stores, read at an index (p, q) of the block.

  With x the pooled row p of the block: columns 0 … 12499 hold the head's row log-softmax; columns 12500 … 24999 the
  first tail's row log-softmax plus the head's log-probability of cluster 0 (column 12500 of the head); columns
  25000 … 49999 the second tail's plus the head's column 12501. Narrowing the projected row to bf16 changes nothing over
  the extended reals.
-/
import proofs.«107472_j41137196761528_1_alg».proof.Proof.Gen.KernelIdeal.Skeleton
import proofs.«107472_j41137196761528_1_alg».proof.Proof.BlockOps

noncomputable section

open scoped BigOperators

namespace Cert.KernelIdeal.PayValue

open Cert.KernelIdeal Cert.KernelIdeal.Gen Cert.AdaptiveSoftmax
open Idealize.ShloMosaic Idealize.ShloMosaic.ValueIdx Idealize.ShloMosaic.Keepdims

variable (v0 : FVec Ideal S32x128 .bf16) (v2 : FVec Ideal S12502x128 .bf16) (v19 : FVec Ideal S64x128 .bf16)
  (v23 : FVec Ideal S12500x64 .bf16) (v42 : FVec Ideal S32x128 .bf16) (v46 : FVec Ideal S25000x32 .bf16)

/-- The pooled row p of the block. -/
abbrev row (p : Fin 32) : Fin 128 → EReal := fun k => v0 (ix2 p k)

/-- The head's scores of row p. -/
theorem head_scores (p : Fin 32) (j : Fin 12502) :
    matmul dot_S32x128_S12502x128_S32x12502_1_1_0_0_n_n none (k0_pay2 v0)
        (shapeCast S12502x128 v2 shapeCasts_S12502x128_S12502x128) (constant S32x12502 .f32 0x00000000#32) (ix2 p j)
      = logits v2 (row v0 p) j := by
  simp only [k0_pay2, shapeCast_self]
  exact matmul_T_apply (M := 32) (K := 128) (N := 12502) none v0 v2 p j

/-- The first tail's scores of row p: the row projected to width 64, then scored. -/
theorem tail0_scores (p : Fin 32) (j : Fin 12500) :
    matmul dot_S32x64_S12500x64_S32x12500_1_1_0_0_n_n none
        (truncf .bf16 (matmul dot_S32x128_S64x128_S32x64_1_1_0_0_n_n none (k0_pay2 v0)
          (shapeCast S64x128 v19 shapeCasts_S64x128_S64x128) (constant S32x64 .f32 0x00000000#32)) bitsLt_bf16_f32)
        (shapeCast S12500x64 v23 shapeCasts_S12500x64_S12500x64) (constant S32x12500 .f32 0x00000000#32) (ix2 p j)
      = logits v23 (logits v19 (row v0 p)) j := by
  simp only [k0_pay2, shapeCast_self]
  refine (matmul_T_apply (M := 32) (K := 64) (N := 12500) none _ v23 p j).trans ?_
  refine Finset.sum_congr rfl fun k _ => congrArg (· * v23 (ix2 j k)) ?_
  exact matmul_T_apply (M := 32) (K := 128) (N := 64) none v0 v19 p k

/-- The second tail's scores of row p: the row projected to width 32, then scored. -/
theorem tail1_scores (p : Fin 32) (j : Fin 25000) :
    matmul dot_S32x32_S25000x32_S32x25000_1_1_0_0_n_n none
        (truncf .bf16 (matmul dot_S32x128_S32x128_S32x32_1_1_0_0_n_n none (k0_pay2 v0)
          (shapeCast S32x128 v42 shapeCasts_S32x128_S32x128) (constant S32x32 .f32 0x00000000#32)) bitsLt_bf16_f32)
        (shapeCast S25000x32 v46 shapeCasts_S25000x32_S25000x32) (constant S32x25000 .f32 0x00000000#32) (ix2 p j)
      = logits v46 (logits v42 (row v0 p)) j := by
  simp only [k0_pay2, shapeCast_self]
  refine (matmul_T_apply (M := 32) (K := 32) (N := 25000) none _ v46 p j).trans ?_
  refine Finset.sum_congr rfl fun k _ => congrArg (· * v46 (ix2 j k)) ?_
  exact matmul_T_apply (M := 32) (K := 128) (N := 32) none v0 v42 p k

/-- The head's log-probabilities of row p, all 12502 columns. -/
theorem pay3_apply (p : Fin 32) (q : Fin 12502) :
    k0_pay3 (F := Ideal) v0 v2 (ix2 p q) = lsm (logits v2 (row v0 p)) q := by
  unfold k0_pay3
  try dsimp only
  refine (lsm_block (a := 32) (n := 12502) _ _ _ _ _ _ _ p q).trans ?_
  exact congrArg (fun f => lsm f q) (funext fun j => head_scores v0 v2 p j)

/-- The first store: the head's shortlist columns. -/
theorem pay4_apply (p : Fin 32) (q : Fin 12500) :
    k0_pay4 (F := Ideal) v0 v2 (ix2 p q) = lsmAt (logits v2 (row v0 p)) q.val := by
  unfold k0_pay4
  try dsimp only
  refine (slice_cols_apply (a := 32) (n := 12502) (w := 12500) 0 _ _ p q (by omega)).trans ?_
  refine (pay3_apply v0 v2 p _).trans ?_
  rw [lsmAt_of_lt _ q.val (by omega)]
  exact congrArg _ (Fin.ext (Nat.zero_add _))

/-- The second store: the first tail, plus the head's log-probability of its cluster. -/
theorem pay5_apply (p : Fin 32) (q : Fin 12500) :
    k0_pay5 (F := Ideal) v0 v2 v19 v23 (ix2 p q)
      = lsmAt (logits v23 (logits v19 (row v0 p))) q.val + lsmAt (logits v2 (row v0 p)) 12500 := by
  unfold k0_pay5
  try dsimp only
  refine (addf_apply _ _ _).trans (congrArg₂ (· + ·)
    ((lsm_block (a := 32) (n := 12500) _ _ _ _ _ _ _ p q).trans ?_)
    ((broadcastTo_a1_ab_apply _ _ p q).trans
      ((slice_cols_apply (a := 32) (n := 12502) (w := 1) 12500 _ _ p 0 (by omega)).trans ?_)))
  · rw [lsmAt_val]
    exact congrArg (fun f => lsm f q) (funext fun j => tail0_scores v0 v19 v23 p j)
  · refine (pay3_apply v0 v2 p _).trans ?_
    rw [lsmAt_of_lt _ 12500 (by omega)]
    rfl

/-- The third store: the second tail, plus the head's log-probability of its cluster. -/
theorem pay1_apply (p : Fin 32) (q : Fin 25000) :
    k0_pay1 (F := Ideal) (k0_pay2 v0) (k0_pay3 v0 v2) v42 v46 (ix2 p q)
      = lsmAt (logits v46 (logits v42 (row v0 p))) q.val + lsmAt (logits v2 (row v0 p)) 12501 := by
  unfold k0_pay1
  try dsimp only
  refine (addf_apply _ _ _).trans (congrArg₂ (· + ·)
    ((lsm_block (a := 32) (n := 25000) _ _ _ _ _ _ _ p q).trans ?_)
    ((broadcastTo_a1_ab_apply _ _ p q).trans
      ((slice_cols_apply (a := 32) (n := 12502) (w := 1) 12501 _ _ p 0 (by omega)).trans ?_)))
  · rw [lsmAt_val]
    exact congrArg (fun f => lsm f q) (funext fun j => tail1_scores v0 v42 v46 p j)
  · refine (pay3_apply v0 v2 p _).trans ?_
    rw [lsmAt_of_lt _ 12501 (by omega)]
    rfl

end Cert.KernelIdeal.PayValue

end
-- ==== Proof.KernelBlock.lean ====
/-
  From the kernel's stores to its result array.

  At a grid point the body leaves three pieces in the output block: columns 0 … 12499, 12500 … 24999 and
  25000 … 49999. Each piece is the same function of the block index — row p, column j ↦ the adaptive log-softmax of the
  block's pooled row p at column j — so the block holds that function everywhere. Point t's block of pooled rows is
  rows 32 t … 32 t + 31 of the pooled array, the five weight arrays are staged whole, and point t writes rows
  32 t … 32 t + 31 of the result; the 64 points cover the 2048 rows.
-/
import proofs.«107472_j41137196761528_1_alg».proof.Proof.Gen.KernelIdeal.Value
import proofs.«107472_j41137196761528_1_alg».proof.Proof.KernelPay

set_option maxRecDepth 16384

noncomputable section

open scoped BigOperators

namespace Cert.KernelIdeal.BlockValue

open Cert.KernelIdeal Cert.KernelIdeal.Gen Cert.KernelIdeal.PayValue Cert.AdaptiveSoftmax
open Idealize.ShloMosaic Idealize.ShloMosaic.TcCoe Idealize.ShloMosaic.Tactic Idealize.ShloMosaic.ValueIdx
open Idealize.SL Idealize.SL.Sem
open Idealize.ShloMosaic.Pipeline (Dat)

theorem hz : (![0, 0] : Fin 2 → Nat) = fun _ => 0 := funext fun a => by fin_cases a <;> rfl

/-! ## One block of output rows -/

/-- The 32 output rows of a block, from the block's pooled rows and the weights. -/
def blockOut (x0 : FVec Ideal S32x128 .bf16) (x1 : FVec Ideal S12502x128 .bf16) (x2 : FVec Ideal S64x128 .bf16)
    (x3 : FVec Ideal S12500x64 .bf16) (x4 : FVec Ideal S32x128 .bf16) (x5 : FVec Ideal S25000x32 .bf16) :
    S32x50000.Idx → EReal :=
  fun y => rowOut x1 x2 x3 x4 x5 (row x0 ⟨(y 0).val, idx2_lt0 y⟩) (y 1).val

theorem blockOut_of (x0 : FVec Ideal S32x128 .bf16) (x1 : FVec Ideal S12502x128 .bf16) (x2 : FVec Ideal S64x128 .bf16)
    (x3 : FVec Ideal S12500x64 .bf16) (x4 : FVec Ideal S32x128 .bf16) (x5 : FVec Ideal S25000x32 .bf16)
    (y : S32x50000.Idx) (p : Fin 32) (n : ℕ) (h0 : (y 0).val = p.val) (h1 : (y 1).val = n) :
    blockOut x0 x1 x2 x3 x4 x5 y = rowOut x1 x2 x3 x4 x5 (row x0 p) n := by
  have e : (⟨(y 0).val, idx2_lt0 y⟩ : Fin 32) = p := Fin.ext h0
  unfold blockOut; rw [e, h1]

/-- What the body leaves in the output block: every one of its three pieces is a piece of `blockOut`. -/
theorem out_eq (c : Dev nD) (i : grid0.Coords) (arg1 : Memref sig .tc .vmem S32x128 .bf16) (harg1 : arg1.IsWhole) (arg2 : Memref sig .tc .vmem S12502x128 .bf16) (harg2 : arg2.IsWhole) (arg3 : Memref sig .tc .vmem S64x128 .bf16) (harg3 : arg3.IsWhole) (arg4 : Memref sig .tc .vmem S12500x64 .bf16) (harg4 : arg4.IsWhole) (arg5 : Memref sig .tc .vmem S32x128 .bf16) (harg5 : arg5.IsWhole) (arg6 : Memref sig .tc .vmem S25000x32 .bf16) (harg6 : arg6.IsWhole) (arg7 : Memref sig .tc .vmem S32x50000 .f32) (harg7 : arg7.IsWhole)
    (x0 : Vec Ideal S32x128 .bf16) (x1 : Vec Ideal S12502x128 .bf16) (x2 : Vec Ideal S64x128 .bf16) (x3 : Vec Ideal S12500x64 .bf16) (x4 : Vec Ideal S32x128 .bf16) (x5 : Vec Ideal S25000x32 .bf16) :
    out0_A_6 (F := Ideal) c i arg1 harg1 arg2 harg2 arg3 harg3 arg4 harg4 arg5 harg5 arg6 harg6 arg7 harg7 x0 x1 x2 x3 x4 x5 = blockOut x0 x1 x2 x3 x4 x5 := by
  funext y
  unfold out0_A_6
  rw [View.read_writes_eq_canon _ _ _ (cover0_A_6 c i arg1 harg1 arg2 harg2 arg3 harg3 arg4 harg4 arg5 harg5 arg6 harg6 arg7 harg7 x0 x1 x2 x3 x4 x5)]
  refine View.canon_apply_of_pieces (blockOut x0 x1 x2 x3 x4 x5) _ ?_ y (cover0_A_6 c i arg1 harg1 arg2 harg2 arg3 harg3 arg4 harg4 arg5 harg5 arg6 harg6 arg7 harg7 x0 x1 x2 x3 x4 x5 y)
  unfold kernelRun0_A
  dsimp only
  sl_unfold_words
  simp only [View.readAt_eq_ld, harg1.read_unread, harg2.read_unread, harg3.read_unread, harg4.read_unread,
    harg5.read_unread, harg6.read_unread, View.ld_unit_zero (S := S32x128) hz, View.ld_unit_zero (S := S12502x128) hz,
    View.ld_unit_zero (S := S64x128) hz, View.ld_unit_zero (S := S12500x64) hz, View.ld_unit_zero (S := S25000x32) hz]
  intro pc hpc x
  simp only [List.mem_cons, List.not_mem_nil, or_false] at hpc
  rcases hpc with rfl | rfl | rfl
  · obtain ⟨p, q, rfl⟩ : ∃ (p : Fin 32) (q : Fin 25000), x = ix2 p q := ⟨x 0, x 1, eq_ix2 x⟩
    refine (pay1_apply x0 x1 x4 x5 p q).trans ?_
    refine ((blockOut_of x0 x1 x2 x3 x4 x5 _ p (25000 + q.val) ?_ ?_).trans (rowOut_tail1 x1 x2 x3 x4 x5 (row x0 p) q.val)).symm
    · show 0 + 1 * p.val = p.val; omega
    · show 25000 + 1 * q.val = 25000 + q.val; omega
  · obtain ⟨p, q, rfl⟩ : ∃ (p : Fin 32) (q : Fin 12500), x = ix2 p q := ⟨x 0, x 1, eq_ix2 x⟩
    refine (pay5_apply x0 x1 x2 x3 p q).trans ?_
    refine ((blockOut_of x0 x1 x2 x3 x4 x5 _ p (12500 + q.val) ?_ ?_).trans (rowOut_tail0 x1 x2 x3 x4 x5 (row x0 p) q.val q.isLt)).symm
    · show 0 + 1 * p.val = p.val; omega
    · show 12500 + 1 * q.val = 12500 + q.val; omega
  · obtain ⟨p, q, rfl⟩ : ∃ (p : Fin 32) (q : Fin 12500), x = ix2 p q := ⟨x 0, x 1, eq_ix2 x⟩
    refine (pay4_apply x0 x1 p q).trans ?_
    refine ((blockOut_of x0 x1 x2 x3 x4 x5 _ p q.val ?_ ?_).trans (rowOut_head x1 x2 x3 x4 x5 (row x0 p) q.val q.isLt)).symm
    · show 0 + 1 * p.val = p.val; omega
    · show 0 + 1 * q.val = q.val; omega

/-! ## The blocks the points read and write -/

variable (m : (ℓ : Loc nD τ sig) → Buf (Elt Ideal) ℓ)

/-- The printed index maps over the 64 grid points: the pooled rows and the result move with the point, the weights stay. -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem t_lt (t : Fin cfg0.N) : t.val < 64 := by have := t.isLt; have h : cfg0.N = 64 := N_0; omega

/-- Row p of point t's block of pooled rows is row 32 t + p of the pooled array. -/
theorem xblk_apply (c : Dev nD) (t : Fin cfg0.N) (p : Fin 32) (k : Fin 128) :
    (iblk m c 0 t : FVec Ideal S32x128 .bf16) (ix2 p k)
      = (V m c main_v22 : S2048x128.Idx → EReal) (ix2 ⟨32 * t.val + p.val, by have := t_lt t; omega⟩ k) := by
  obtain ⟨e0, e1, -⟩ := idx_facts t
  unfold iblk
  rw [View.read_apply]
  show V m c main_v22 _ = V m c main_v22 _
  congr 1
  funext a
  apply Fin.ext
  match a with
  | ⟨0, _⟩ => show win0_0.index t (0 : Fin 2) * 32 + 1 * p.val = 32 * t.val + p.val; rw [e0]; omega
  | ⟨1, _⟩ => show win0_0.index t (1 : Fin 2) * 128 + 1 * k.val = k.val; rw [e1]; omega

/-- The weight blocks are the weight arrays. -/
theorem wblk1_eq (c : Dev nD) (t : Fin cfg0.N) :
    (iblk m c 1 t : FVec Ideal S12502x128 .bf16) = (V m c main_v23 : S12502x128.Idx → EReal) := by
  obtain ⟨-, -, -, -, e0, e1, -⟩ := idx_facts t
  funext y
  unfold iblk
  rw [View.read_apply]
  show V m c main_v23 _ = V m c main_v23 _
  congr 1
  funext a
  apply Fin.ext
  match a with
  | ⟨0, _⟩ => show win0_1.index t (0 : Fin 2) * 12502 + 1 * (y 0).val = (y 0).val; rw [e0]; omega
  | ⟨1, _⟩ => show win0_1.index t (1 : Fin 2) * 128 + 1 * (y 1).val = (y 1).val; rw [e1]; omega
theorem wblk2_eq (c : Dev nD) (t : Fin cfg0.N) :
    (iblk m c 2 t : FVec Ideal S64x128 .bf16) = (V m c main_v24 : S64x128.Idx → EReal) := by
  obtain ⟨-, -, -, -, -, -, e0, e1, -⟩ := idx_facts t
  funext y
  unfold iblk
  rw [View.read_apply]
  show V m c main_v24 _ = V m c main_v24 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega
theorem wblk3_eq (c : Dev nD) (t : Fin cfg0.N) :
    (iblk m c 3 t : FVec Ideal S12500x64 .bf16) = (V m c main_v25 : S12500x64.Idx → EReal) := by
  obtain ⟨-, -, -, -, -, -, -, -, e0, e1, -⟩ := idx_facts t
  funext y
  unfold iblk
  rw [View.read_apply]
  show V m c main_v25 _ = V m c main_v25 _
  congr 1
  funext a
  apply Fin.ext
  match a with
  | ⟨0, _⟩ => show win0_3.index t (0 : Fin 2) * 12500 + 1 * (y 0).val = (y 0).val; rw [e0]; omega
  | ⟨1, _⟩ => show win0_3.index t (1 : Fin 2) * 64 + 1 * (y 1).val = (y 1).val; rw [e1]; omega
theorem wblk4_eq (c : Dev nD) (t : Fin cfg0.N) :
    (iblk m c 4 t : FVec Ideal S32x128 .bf16) = (V m c main_v26 : S32x128.Idx → EReal) := by
  obtain ⟨-, -, -, -, -, -, -, -, -, -, e0, e1, -⟩ := idx_facts t
  funext y
  unfold iblk
  rw [View.read_apply]
  show V m c main_v26 _ = V m c main_v26 _
  congr 1
  funext a
  apply Fin.ext
  match a with
  | ⟨0, _⟩ => show win0_4.index t (0 : Fin 2) * 32 + 1 * (y 0).val = (y 0).val; rw [e0]; omega
  | ⟨1, _⟩ => show win0_4.index t (1 : Fin 2) * 128 + 1 * (y 1).val = (y 1).val; rw [e1]; omega
theorem wblk5_eq (c : Dev nD) (t : Fin cfg0.N) :
    (iblk m c 5 t : FVec Ideal S25000x32 .bf16) = (V m c main_v27 : S25000x32.Idx → EReal) := by
  obtain ⟨-, -, -, -, -, -, -, -, -, -, -, -, e0, e1⟩ := idx_facts t
  funext y
  unfold iblk
  rw [View.read_apply]
  show V m c main_v27 _ = V m c main_v27 _
  congr 1
  funext a
  apply Fin.ext
  match a with
  | ⟨0, _⟩ => show win0_5.index t (0 : Fin 2) * 25000 + 1 * (y 0).val = (y 0).val; rw [e0]; omega
  | ⟨1, _⟩ => show win0_5.index t (1 : Fin 2) * 32 + 1 * (y 1).val = (y 1).val; rw [e1]; omega

/-! ## The result array -/

/-- The result as one function of the arrays the region finds: the pooled rows and the five weight arrays. -/
abbrev resultArr (c : Dev nD) : S2048x50000.Idx → EReal :=
  G (V m c main_v22 : S2048x128.Idx → EReal) (V m c main_v23 : S12502x128.Idx → EReal)
    (V m c main_v24 : S64x128.Idx → EReal) (V m c main_v25 : S12500x64.Idx → EReal)
    (V m c main_v26 : S32x128.Idx → EReal) (V m c main_v27 : S25000x32.Idx → EReal)

/-- What point t writes back is rows 32 t … 32 t + 31 of the result. -/
theorem flushed_eq (c : Dev nD) (t : Fin cfg0.N) :
    (dats m 0 c).flushed 6 t = ((cfg0.win 6).blk t).view.read (Elt Ideal) (resultArr m c) := by
  obtain ⟨-, -, e0, e1, -⟩ := idx_facts t
  rw [Value.flushed6_A]
  have e := out_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (iblk m c 0 t) (iblk m c 1 t) (iblk m c 2 t)
    (iblk m c 3 t) (iblk m c 4 t) (iblk m c 5 t)
  rw [e]
  funext j
  obtain ⟨p, q, rfl⟩ : ∃ (p : Fin 32) (q : Fin 50000), j = ix2 p q := ⟨j 0, j 1, eq_ix2 j⟩
  show blockOut (iblk m c 0 t) (iblk m c 1 t) (iblk m c 2 t) (iblk m c 3 t) (iblk m c 4 t) (iblk m c 5 t) (ix2 p q)
    = resultArr m c (((cfg0.win 6).blk t).view.emb (ix2 p q))
  rw [blockOut_of _ _ _ _ _ _ (ix2 p q) p q.val rfl rfl]
  have hr : resultArr m c (((cfg0.win 6).blk t).view.emb (ix2 p q))
      = rowOut (V m c main_v23 : S12502x128.Idx → EReal) (V m c main_v24 : S64x128.Idx → EReal)
          (V m c main_v25 : S12500x64.Idx → EReal) (V m c main_v26 : S32x128.Idx → EReal)
          (V m c main_v27 : S25000x32.Idx → EReal)
          (fun k => (V m c main_v22 : S2048x128.Idx → EReal) (ix2 ⟨32 * t.val + p.val, by have := t_lt t; omega⟩ k)) q.val :=
    G_of _ _ _ _ _ _ _ ⟨32 * t.val + p.val, by have := t_lt t; omega⟩ q.val
      (by show win0_6.index t (0 : Fin 2) * 32 + 1 * p.val = 32 * t.val + p.val; rw [e0]; omega)
      (by show win0_6.index t (1 : Fin 2) * 50000 + 1 * q.val = q.val; rw [e1]; omega)
  rw [hr, wblk1_eq, wblk2_eq, wblk3_eq, wblk4_eq, wblk5_eq]
  exact congrArg (fun x => rowOut _ _ _ _ _ x q.val) (funext fun k => xblk_apply m c t p k)

/-- Row r of the array lies in the block of point r / 32. -/
theorem cover (i : S2048x50000.Idx) :
    ∃ t : Fin cfg0.N, (cfg0.win 6).flush t = true ∧ i ∈ ((cfg0.win 6).blk t).view.set := by
  have hi0 : (i 0).val < 2048 := (i 0).isLt
  have hi1 : (i 1).val < 50000 := (i 1).isLt
  have hN : cfg0.N = 64 := N_0
  have ht : (i 0).val / 32 < cfg0.N := by omega
  obtain ⟨-, -, e0, e1, -⟩ := idx_facts ⟨(i 0).val / 32, ht⟩
  refine ⟨⟨(i 0).val / 32, ht⟩, flush0_6 _, ?_⟩
  show i ∈ ((View.whole main_v28).slice (win0_6.rect ⟨(i 0).val / 32, ht⟩)).set
  rw [View.set_slice_whole, Rect.mem_set_unit]
  intro a
  match a with
  | ⟨0, _⟩ =>
    show win0_6.index ⟨(i 0).val / 32, ht⟩ (0 : Fin 2) * 32 ≤ (i 0).val
      ∧ (i 0).val < win0_6.index ⟨(i 0).val / 32, ht⟩ (0 : Fin 2) * 32 + 32
    rw [e0]; show (i 0).val / 32 * 32 ≤ (i 0).val ∧ (i 0).val < (i 0).val / 32 * 32 + 32; omega
  | ⟨1, _⟩ =>
    show win0_6.index ⟨(i 0).val / 32, ht⟩ (1 : Fin 2) * 50000 ≤ (i 1).val
      ∧ (i 1).val < win0_6.index ⟨(i 0).val / 32, ht⟩ (1 : Fin 2) * 50000 + 50000
    rw [e1]; omega

/-- The 64 points' blocks cover the array, so it ends holding the result. -/
theorem final (c : Dev nD) : (dats m 0 c).arrAt 6 cfg0.N = resultArr m c :=
  (dats m 0 c).arrAt_eq_of_cover 6 (resultArr m c) (fun t _ => flushed_eq m c t) fun i => cover i

/-- The kernel's run with its result array named. -/
theorem run (ρ : Dev nD → PrngReg) :
    θ_run defs (onTc (τ := τ) (main (F := Ideal))) ⟨m, fun _ => 0, ρ⟩ fun r => ∀ c : Dev nD,
      r.2.mem ((c : Thread nD τ).loc main_v28) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.BlockValue

end
-- ==== Proof.LibNary3.lean ====
/-
  Two small facts about host operations. The contents a module-local function's line writes through a typed reference
  and a later line reads back through it are the contents. And: a host operation over a literal family of THREE operand buffers (a concatenation of three arrays), read at its
  result buffer: the function applied to the three operands' contents, each AT ITS OWN buffer, so that rewriting can go
  on into the operands. Under the generic statement the operand is read through the family's index, which is no
  literal buffer; here the family is opened at its three literal positions.
-/
import Idealize.ShloMosaic.Lib.StableHlo.Run

namespace Idealize.ShloMosaic.StableHlo

variable {τ : Topo} {sig : RefSig} {Val : EltTy → Type}
variable {x a b y : Ref sig .tc}

/-- The result of a three-operand operation at its result buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result buffer kept out of the simplifier's index (as the library states its own result lemmas). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same for a function that reads its three operands at the positions 0, 1, 2: the function of the three contents. -/
theorem nary3_result_g
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) := by
  rw [nary_result]; rfl

/-- Contents carried to a typed reference's buffer and read back are the contents. -/
theorem TRef.ofBuf_toBuf {T : BufTy} (x : TRef sig T) (v : T.Contents Val) : x.ofBuf (x.toBuf v) = v := by
  obtain ⟨ref, h, od, us⟩ := x
  subst h
  rfl

/-- The third entry of a family built by prepending: one step past the head, then the second. -/
theorem cons_two' {n : ℕ} {α : Fin (n + 3) → Sort _} (x : α 0) (p : ∀ i : Fin (n + 2), α i.succ) :
    Fin.cons x p 2 = p 1 := rfl

/-- The library's one-pass evaluation of a list of host operations, its operation over a family of buffers read by the
    three-operand lemma only (the generic one reads the operands through the family's index and stops there), the
    family then opened at its three positions. -/
macro "after_results_simp3" : tactic =>
  `(tactic| (simp (disch := decide) only [after_cons, after_nil, Fin.cons_zero, Fin.cons_one, cons_two',
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.HostOps.lean ====
/-
  The host's forms of the same operations, read at an index.

  * Broadcasts along kept axes: a scalar to a vector, a vector to a one-column array, a one-column array to full width.
  * The host's row maximum — a reduce from −∞ over the last axis — at row r is the row's maximum from −∞; its row sum is
    its initial value plus the row's sum.
  * The host's log-softmax takes the maximum with −∞ once more and starts its sum from a zero: neither changes the
    value, so its chain of operations at (r, j) is the row log-softmax of row r at column j.
  * A product x [M, K] by the transpose of W [N, K] is at (r, j) row r of x dotted with row j of W.
-/
import proofs.«107472_j41137196761528_1_alg».proof.Proof.Spec
import proofs.«107472_j41137196761528_1_alg».proof.Proof.BlockOps
import Idealize.ShloMosaic.PureOps.Reduce

noncomputable section

open scoped BigOperators

namespace Cert.AdaptiveSoftmax

open Idealize.ShloMosaic Idealize.ShloMosaic.ValueIdx

section HostChain
variable {R n : ℕ}

/-- A scalar broadcast to a vector reads the scalar. -/
theorem bcast0_apply {α : Type} (y : (⟨0, ![]⟩ : Shape).Idx → α)
    (h : (⟨0, ![]⟩ : Shape).BroadcastsInDim ⟨1, ![R]⟩ ![]) (i : (⟨1, ![R]⟩ : Shape).Idx) :
    broadcastInDim ⟨1, ![R]⟩ ![] h y i = y (fun a => a.elim0) :=
  broadcastInDim_apply _ h y i _ (fun a => a.elim0)

/-- A vector laid out as one column reads, at (r, u), the vector at r. -/
theorem bcast1_apply {α : Type} (y : (⟨1, ![R]⟩ : Shape).Idx → α)
    (h : (⟨1, ![R]⟩ : Shape).BroadcastsInDim ⟨2, ![R, 1]⟩ ![0]) (r : Fin R) (u : Fin 1) :
    broadcastInDim ⟨2, ![R, 1]⟩ ![0] h y (ix2 r u) = y (ix1 r) :=
  broadcastInDim_apply _ h y _ _ (fun a => match a with
    | ⟨0, _⟩ => by
      show r.val = if R = 1 then 0 else r.val
      split
      · have := r.isLt; omega
      · rfl)

/-- A one-column array broadcast to full width reads, at (r, j), the column's row r. -/
theorem bcast2_apply {α : Type} (y : (⟨2, ![R, 1]⟩ : Shape).Idx → α)
    (h : (⟨2, ![R, 1]⟩ : Shape).BroadcastsInDim ⟨2, ![R, n]⟩ ![0, 1]) (r : Fin R) (j : Fin n) :
    broadcastInDim ⟨2, ![R, n]⟩ ![0, 1] h y (ix2 r j) = y (ix2 r (0 : Fin 1)) :=
  broadcastInDim_apply _ h y _ _ (fun a => match a with
    | ⟨0, _⟩ => by
      show r.val = if R = 1 then 0 else r.val
      split
      · have := r.isLt; omega
      · rfl
    | ⟨1, _⟩ => by
      show 0 = if (1 : ℕ) = 1 then 0 else j.val
      rw [if_pos rfl])

/-- The host's reduce with maximum over the last axis, started from −∞, at row r. -/
theorem host_rowMax (y : (⟨2, ![R, n]⟩ : Shape).Idx → EReal) (init : (⟨0, ![]⟩ : Shape).Idx → EReal)
    (hinit : ∀ i, init i = negInf)
    (h' : (⟨2, ![R, n]⟩ : Shape).ReducesTo [1] ⟨1, ![R]⟩) (h : (⟨2, ![R, n]⟩ : Shape).Reduces [1] ⟨1, ![R]⟩)
    (hu : 0 < (⟨0, ![]⟩ : Shape).numel) (r : Fin R) :
    Host.reduce (FloatOps.maximumf (F := Ideal) (φ := .f32)) y init h' hu (ix1 r) = rowMax (fun j : Fin n => y (ix2 r j)) := by
  rw [Host.reduce_eq_fold_single _ y init h' h hu (ix1 r), hinit]
  have e : (y ∘ h.lift (ix1 r)) = fun j : Fin n => y (ix2 r j) := funext fun k => congrArg y (lift_row h r k)
  rw [e]; rfl

/-- The host's sum over the last axis at row r: the initial value plus the row's sum. -/
theorem host_rowSum (y : FVec Ideal ⟨2, ![R, n]⟩ .f32) (init : (⟨0, ![]⟩ : Shape).Idx → EReal)
    (h' : (⟨2, ![R, n]⟩ : Shape).ReducesTo [1] ⟨1, ![R]⟩) (h : (⟨2, ![R, n]⟩ : Shape).Reduces [1] ⟨1, ![R]⟩)
    (hu : 0 < (⟨0, ![]⟩ : Shape).numel) (r : Fin R) :
    Host.reduceAdd y init h' hu (ix1 r) = init (Shape.Idx.first hu) + ∑ k : Fin n, y (ix2 r k) := by
  simp only [Host.reduceAdd, Ideal.hostReduceAdd_def]
  rw [Ideal.hostReduceAdd_single h' h]
  exact congrArg (_ + ·) (Finset.sum_congr rfl fun k _ => congrArg y (lift_row h r k))

/-- The host's spelling of the row log-softmax is the row log-softmax. -/
theorem lsm_host_form (z : Fin n → EReal) (j : Fin n) :
    (z j - max negInf (rowMax z))
        - Ideal.log (Ideal.ofBits .f32 0x00000000#32 + ∑ k, Ideal.exp (z k - max negInf (rowMax z)))
      = lsm z j := by
  rw [max_negInf_rowMax, Ideal.ofBits_zero_f32, zero_add]; rfl

/-- The host's log-softmax over the last axis, operation by operation, at (r, j). -/
theorem lsm_host (z : FVec Ideal ⟨2, ![R, n]⟩ .f32)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, n]⟩ ![0, 1])
    (h' : (⟨2, ![R, n]⟩ : Shape).ReducesTo [1] ⟨1, ![R]⟩) (h : (⟨2, ![R, n]⟩ : Shape).Reduces [1] ⟨1, ![R]⟩)
    (hu : 0 < (⟨0, ![]⟩ : Shape).numel) (r : Fin R) (j : Fin n) :
    subf (subf z (broadcastInDim ⟨2, ![R, n]⟩ ![0, 1] hb2 (broadcastInDim ⟨2, ![R, 1]⟩ ![0] hb1
          (maximumf (broadcastInDim ⟨1, ![R]⟩ ![] hb0 (constant (F := Ideal) ⟨0, ![]⟩ .f32 0xFF800000#32))
            (Host.reduce FloatOps.maximumf z (constant (F := Ideal) ⟨0, ![]⟩ .f32 0xFF800000#32) h' hu)))))
      (broadcastInDim ⟨2, ![R, n]⟩ ![0, 1] hb2 (Host.log (broadcastInDim ⟨2, ![R, 1]⟩ ![0] hb1
        (Host.reduceAdd (Host.exp (subf z (broadcastInDim ⟨2, ![R, n]⟩ ![0, 1] hb2 (broadcastInDim ⟨2, ![R, 1]⟩ ![0] hb1
          (maximumf (broadcastInDim ⟨1, ![R]⟩ ![] hb0 (constant (F := Ideal) ⟨0, ![]⟩ .f32 0xFF800000#32))
            (Host.reduce FloatOps.maximumf z (constant (F := Ideal) ⟨0, ![]⟩ .f32 0xFF800000#32) h' hu))))))
          (constant (F := Ideal) ⟨0, ![]⟩ .f32 0x00000000#32) h' hu)))) (ix2 r j)
      = lsm (fun k : Fin n => z (ix2 r k)) j := by
  have hM : ∀ k : Fin n, broadcastInDim ⟨2, ![R, n]⟩ ![0, 1] hb2 (broadcastInDim ⟨2, ![R, 1]⟩ ![0] hb1
          (maximumf (broadcastInDim ⟨1, ![R]⟩ ![] hb0 (constant (F := Ideal) ⟨0, ![]⟩ .f32 0xFF800000#32))
            (Host.reduce FloatOps.maximumf z (constant (F := Ideal) ⟨0, ![]⟩ .f32 0xFF800000#32) h' hu))) (ix2 r k)
        = max negInf (rowMax (fun k : Fin n => z (ix2 r k))) := fun k => by
    rw [bcast2_apply, bcast1_apply]
    show max (broadcastInDim ⟨1, ![R]⟩ ![] hb0 (constant (F := Ideal) ⟨0, ![]⟩ .f32 0xFF800000#32) (ix1 r)) (Host.reduce _ z _ h' hu (ix1 r)) = _
    rw [bcast0_apply, host_rowMax z (constant (F := Ideal) ⟨0, ![]⟩ .f32 0xFF800000#32) (fun _ => rfl) h' h hu r]
    rfl
  show (z (ix2 r j) - _) - _ = _
  rw [hM j, bcast2_apply]
  simp only [Host.log]
  rw [bcast1_apply, host_rowSum _ _ h' h hu r]
  have hS : (∑ k : Fin n, Host.exp (subf z (broadcastInDim ⟨2, ![R, n]⟩ ![0, 1] hb2 (broadcastInDim ⟨2, ![R, 1]⟩ ![0] hb1
          (maximumf (broadcastInDim ⟨1, ![R]⟩ ![] hb0 (constant (F := Ideal) ⟨0, ![]⟩ .f32 0xFF800000#32))
            (Host.reduce FloatOps.maximumf z (constant (F := Ideal) ⟨0, ![]⟩ .f32 0xFF800000#32) h' hu))))) (ix2 r k))
        = ∑ k : Fin n, Ideal.exp (z (ix2 r k) - max negInf (rowMax (fun k : Fin n => z (ix2 r k)))) :=
    Finset.sum_congr rfl fun k _ => by
      show Ideal.exp (z (ix2 r k) - _) = _
      rw [hM k]
  rw [hS]
  exact lsm_host_form (fun k : Fin n => z (ix2 r k)) j

end HostChain

/-! ## A host product with a transposed weight -/

section HostDot
variable {M K N : ℕ}

theorem contr_rank_pos' : 0 < (DotDims.plain M K N).contr.rank := Nat.one_pos

theorem lhs_P_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem lhs_P_1 (i : (⟨2, ![M, N]⟩ : Shape).Idx) (q : (DotDims.plain M K N).contr.Idx) :
    ((DotDims.plain M K N).lhsIdx i q 1).val = (q ⟨0, contr_rank_pos'⟩).val :=
  (DotDims.plain M K N).lhsIdx_val_of_single rfl i q
theorem rhs_P_0 (i : (⟨2, ![M, N]⟩ : Shape).Idx) (q : (DotDims.plain M K N).contr.Idx) :
    ((DotDims.plain M K N).rhsIdx i q 0).val = (q ⟨0, contr_rank_pos'⟩).val :=
  (DotDims.plain M K N).rhsIdx_val_of_single rfl i q
theorem rhs_P_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The host's product of x [M, K] with y [K, N]: at (p, q), Σ k, x (p, k) · y (k, q). -/
theorem dot_plain_apply {φ₁ φ₂ : FTy} (prec : Option ContractPrecision) (x : FVec Ideal ⟨2, ![M, K]⟩ φ₁)
    (y : FVec Ideal ⟨2, ![K, N]⟩ φ₂) (p : Fin M) (q : Fin N) :
    Host.dotGeneral (DotDims.plain M K N) prec x y (ix2 p q) = ∑ k : Fin K, x (ix2 p k) * y (ix2 k q) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_P_0 _ _
      | ⟨1, _⟩ => exact (lhs_P_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_P_0 _ _).trans hk
      | ⟨1, _⟩ => exact rhs_P_1 _ _)
  rw [el, er]

/-- The transpose of W [N, K], read at (k, q), is W at (q, k). -/
theorem transpose_rows_apply {α : Type} (w : (⟨2, ![N, K]⟩ : Shape).Idx → α)
    (h : (⟨2, ![N, K]⟩ : Shape).Transposes [1, 0] ⟨2, ![K, N]⟩) (k : Fin K) (q : Fin N) :
    transpose ⟨2, ![K, N]⟩ [1, 0] w h (ix2 k q) = w (ix2 q k) :=
  transpose_apply [1, 0] w h _ _ (fun b => match b with
    | ⟨0, _⟩ => rfl
    | ⟨1, _⟩ => rfl)

/-- So a row of x against the transposed weight is the row's scores. -/
theorem dot_transposed_apply {φ₁ : FTy} (prec : Option ContractPrecision) (x : FVec Ideal ⟨2, ![M, K]⟩ φ₁)
    (w : FVec Ideal ⟨2, ![N, K]⟩ .f32) (h : (⟨2, ![N, K]⟩ : Shape).Transposes [1, 0] ⟨2, ![K, N]⟩) (p : Fin M) (q : Fin N) :
    Host.dotGeneral (DotDims.plain M K N) prec x (transpose ⟨2, ![K, N]⟩ [1, 0] w h) (ix2 p q)
      = logits w (fun k => x (ix2 p k)) q := by
  rw [dot_plain_apply]
  exact Finset.sum_congr rfl fun k _ => by rw [transpose_rows_apply]

end HostDot

end Cert.AdaptiveSoftmax

end
-- ==== Proof.RefValue.lean ====
/-
  The reference's result, stage by stage, is the same function of the pooled array and the weights.

  Its three products with a transposed weight are rows of scores; each call of its log-softmax is the row log-softmax;
  the head's columns 12500 and 12501, broadcast along the rows, are added to the two tails; the three column ranges are
  joined side by side.
-/
import proofs.«107472_j41137196761528_1_alg».proof.Proof.RefRead
import proofs.«107472_j41137196761528_1_alg».proof.Proof.HostOps

set_option maxRecDepth 16384

noncomputable section

open scoped BigOperators

namespace Cert.ReferenceIdeal.RefValue

open Cert.ReferenceIdeal Cert.ReferenceIdeal.Gen Cert.ReferenceIdeal.ReadP Cert.AdaptiveSoftmax
open Idealize.ShloMosaic Idealize.ShloMosaic.ValueIdx

variable (x0 : (⟨S2048x50, .i32⟩ : BufTy).Contents (Elt Ideal)) (x1 : (⟨S1000000x128, .f32⟩ : BufTy).Contents (Elt Ideal)) (x2 : (⟨S12502x128, .f32⟩ : BufTy).Contents (Elt Ideal)) (x3 : (⟨S64x128, .f32⟩ : BufTy).Contents (Elt Ideal)) (x4 : (⟨S12500x64, .f32⟩ : BufTy).Contents (Elt Ideal)) (x5 : (⟨S32x128, .f32⟩ : BufTy).Contents (Elt Ideal)) (x6 : (⟨S25000x32, .f32⟩ : BufTy).Contents (Elt Ideal))

/-- Row r of the reference's pooled array. -/
abbrev prow (r : Fin 2048) : Fin 128 → EReal := fun k => val_main_v21 (F := Ideal) x0 x1 (ix2 r k)

/-! ## The scores -/

theorem v23_at (r : Fin 2048) (j : Fin 12502) :
    val_main_v23 (F := Ideal) x0 x1 x2 (ix2 r j) = logits x2 (prow x0 x1 r) j := by
  unfold val_main_v23 val_main_v22
  exact dot_transposed_apply (M := 2048) (K := 128) (N := 12502) none (val_main_v21 (F := Ideal) x0 x1) x2 _ r j

theorem v27_at (r : Fin 2048) (j : Fin 64) :
    val_main_v27 (F := Ideal) x0 x1 x3 (ix2 r j) = logits x3 (prow x0 x1 r) j := by
  unfold val_main_v27 val_main_v26
  exact dot_transposed_apply (M := 2048) (K := 128) (N := 64) none (val_main_v21 (F := Ideal) x0 x1) x3 _ r j

theorem v29_at (r : Fin 2048) (j : Fin 12500) :
    val_main_v29 (F := Ideal) x0 x1 x3 x4 (ix2 r j) = logits x4 (logits x3 (prow x0 x1 r)) j := by
  unfold val_main_v29 val_main_v28
  refine (dot_transposed_apply (M := 2048) (K := 64) (N := 12500) none (val_main_v27 (F := Ideal) x0 x1 x3) x4 _ r j).trans ?_
  exact congrArg (fun f => logits x4 f j) (funext fun a => v27_at x0 x1 x3 r a)

theorem v35_at (r : Fin 2048) (j : Fin 32) :
    val_main_v35 (F := Ideal) x0 x1 x5 (ix2 r j) = logits x5 (prow x0 x1 r) j := by
  unfold val_main_v35 val_main_v34
  exact dot_transposed_apply (M := 2048) (K := 128) (N := 32) none (val_main_v21 (F := Ideal) x0 x1) x5 _ r j

theorem v37_at (r : Fin 2048) (j : Fin 25000) :
    val_main_v37 (F := Ideal) x0 x1 x5 x6 (ix2 r j) = logits x6 (logits x5 (prow x0 x1 r)) j := by
  unfold val_main_v37 val_main_v36
  refine (dot_transposed_apply (M := 2048) (K := 32) (N := 25000) none (val_main_v35 (F := Ideal) x0 x1 x5) x6 _ r j).trans ?_
  exact congrArg (fun f => logits x6 f j) (funext fun a => v35_at x0 x1 x5 r a)

/-! ## The three log-softmax calls -/

theorem v24_at (r : Fin 2048) (j : Fin 12502) :
    val_main_v24 (F := Ideal) x0 x1 x2 (ix2 r j) = lsm (logits x2 (prow x0 x1 r)) j := by
  unfold val_main_v24 val_main_call0_v10 val_main_call0_v9 val_main_call0_v8 val_main_call0_v7 val_main_call0_v6
    val_main_call0_v5 val_main_call0_v4 val_main_call0_v3 val_main_call0_v2 val_main_call0_v1 val_main_call0_v0
    val_main_call0_cst val_main_call0_cst_0 val_main_call0_cst_1
  refine (lsm_host (R := 2048) (n := 12502) (val_main_v23 (F := Ideal) x0 x1 x2) _ _ _ _ (by decide) _ r j).trans ?_
  exact congrArg (fun f => lsm f j) (funext fun k => v23_at x0 x1 x2 r k)

theorem v30_at (r : Fin 2048) (j : Fin 12500) :
    val_main_v30 (F := Ideal) x0 x1 x3 x4 (ix2 r j) = lsm (logits x4 (logits x3 (prow x0 x1 r))) j := by
  unfold val_main_v30 val_main_call1_v10 val_main_call1_v9 val_main_call1_v8 val_main_call1_v7 val_main_call1_v6
    val_main_call1_v5 val_main_call1_v4 val_main_call1_v3 val_main_call1_v2 val_main_call1_v1 val_main_call1_v0
    val_main_call1_cst val_main_call1_cst_0 val_main_call1_cst_1
  refine (lsm_host (R := 2048) (n := 12500) (val_main_v29 (F := Ideal) x0 x1 x3 x4) _ _ _ _ (by decide) _ r j).trans ?_
  exact congrArg (fun f => lsm f j) (funext fun k => v29_at x0 x1 x3 x4 r k)

theorem v38_at (r : Fin 2048) (j : Fin 25000) :
    val_main_v38 (F := Ideal) x0 x1 x5 x6 (ix2 r j) = lsm (logits x6 (logits x5 (prow x0 x1 r))) j := by
  unfold val_main_v38 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1
  refine (lsm_host (R := 2048) (n := 25000) (val_main_v37 (F := Ideal) x0 x1 x5 x6) _ _ _ _ (by decide) _ r j).trans ?_
  exact congrArg (fun f => lsm f j) (funext fun k => v37_at x0 x1 x5 x6 r k)

/-! ## The three column ranges -/

theorem v25_at (r : Fin 2048) (q : Fin 12500) :
    val_main_v25 (F := Ideal) x0 x1 x2 (ix2 r q) = lsmAt (logits x2 (prow x0 x1 r)) q.val := by
  unfold val_main_v25
  refine (slice_cols_apply (a := 2048) (n := 12502) (w := 12500) 0 _ _ r q (by omega)).trans ?_
  refine (v24_at x0 x1 x2 r _).trans ?_
  rw [lsmAt_of_lt _ q.val (by omega)]
  exact congrArg _ (Fin.ext (Nat.zero_add _))

theorem v32_at (r : Fin 2048) (q : Fin 12500) :
    val_main_v32 (F := Ideal) x0 x1 x2 (ix2 r q) = lsmAt (logits x2 (prow x0 x1 r)) 12500 := by
  unfold val_main_v32 val_main_v31
  refine (bcast2_apply _ _ r q).trans ((slice_cols_apply (a := 2048) (n := 12502) (w := 1) 12500 _ _ r 0 (by omega)).trans ?_)
  refine (v24_at x0 x1 x2 r _).trans ?_
  rw [lsmAt_of_lt _ 12500 (by omega)]
  rfl

theorem v40_at (r : Fin 2048) (q : Fin 25000) :
    val_main_v40 (F := Ideal) x0 x1 x2 (ix2 r q) = lsmAt (logits x2 (prow x0 x1 r)) 12501 := by
  unfold val_main_v40 val_main_v39
  refine (bcast2_apply _ _ r q).trans ((slice_cols_apply (a := 2048) (n := 12502) (w := 1) 12501 _ _ r 0 (by omega)).trans ?_)
  refine (v24_at x0 x1 x2 r _).trans ?_
  rw [lsmAt_of_lt _ 12501 (by omega)]
  rfl

theorem v33_at (r : Fin 2048) (q : Fin 12500) :
    val_main_v33 (F := Ideal) x0 x1 x2 x3 x4 (ix2 r q)
      = lsmAt (logits x4 (logits x3 (prow x0 x1 r))) q.val + lsmAt (logits x2 (prow x0 x1 r)) 12500 := by
  rw [val_main_v33_apply, v30_at, v32_at, lsmAt_val]
  rfl

theorem v41_at (r : Fin 2048) (q : Fin 25000) :
    val_main_v41 (F := Ideal) x0 x1 x2 x5 x6 (ix2 r q)
      = lsmAt (logits x6 (logits x5 (prow x0 x1 r))) q.val + lsmAt (logits x2 (prow x0 x1 r)) 12501 := by
  rw [val_main_v41_apply, v38_at, v40_at, lsmAt_val]
  rfl

/-! ## The result -/

/-- The reference's result at (r, j). -/
theorem out_at (r : Fin 2048) (j : Fin 50000) :
    val_main_v42 (F := Ideal) x0 x1 x2 x3 x4 x5 x6 (ix2 r j) = rowOut x2 x3 x4 x5 x6 (prow x0 x1 r) j.val := by
  unfold val_main_v42
  have hj := j.isLt
  by_cases h1 : j.val < 12500
  · refine (concatenate_apply_piece (1 : Fin 2) ([⟨S2048x12500, val_main_v25 (F := Ideal) x0 x1 x2⟩, ⟨S2048x12500, val_main_v33 (F := Ideal) x0 x1 x2 x3 x4⟩, ⟨S2048x25000, val_main_v41 (F := Ideal) x0 x1 x2 x5 x6⟩] : List ((s : Shape) × (s.Idx → EReal))) _ (ix2 r j) 0 (by simp) S2048x12500
      (val_main_v25 (F := Ideal) x0 x1 x2) rfl rfl 0 rfl (ix2 r (⟨j.val, h1⟩ : Fin 12500)) ?_ ?_).trans ?_
    · intro b hb
      match b with
      | ⟨0, _⟩ => rfl
      | ⟨1, _⟩ => exact absurd rfl hb
    · show 0 + j.val = j.val; omega
    · rw [v25_at]
      exact (rowOut_head x2 x3 x4 x5 x6 (prow x0 x1 r) j.val h1).symm
  · by_cases h2 : j.val < 25000
    · obtain ⟨q, hq⟩ : ∃ q, j.val = 12500 + q := ⟨j.val - 12500, by omega⟩
      have hq' : q < 12500 := by omega
      refine (concatenate_apply_piece (1 : Fin 2) ([⟨S2048x12500, val_main_v25 (F := Ideal) x0 x1 x2⟩, ⟨S2048x12500, val_main_v33 (F := Ideal) x0 x1 x2 x3 x4⟩, ⟨S2048x25000, val_main_v41 (F := Ideal) x0 x1 x2 x5 x6⟩] : List ((s : Shape) × (s.Idx → EReal))) _ (ix2 r j) 1 (by simp) S2048x12500
        (val_main_v33 (F := Ideal) x0 x1 x2 x3 x4) rfl rfl 12500 rfl (ix2 r (⟨q, hq'⟩ : Fin 12500)) ?_ ?_).trans ?_
      · intro b hb
        match b with
        | ⟨0, _⟩ => rfl
        | ⟨1, _⟩ => exact absurd rfl hb
      · show 12500 + q = j.val; omega
      · rw [v33_at]
        exact ((congrArg (rowOut x2 x3 x4 x5 x6 (prow x0 x1 r)) hq).trans
          (rowOut_tail0 x2 x3 x4 x5 x6 (prow x0 x1 r) q hq')).symm
    · obtain ⟨q, hq⟩ : ∃ q, j.val = 25000 + q := ⟨j.val - 25000, by omega⟩
      have hq' : q < 25000 := by omega
      refine (concatenate_apply_piece (1 : Fin 2) ([⟨S2048x12500, val_main_v25 (F := Ideal) x0 x1 x2⟩, ⟨S2048x12500, val_main_v33 (F := Ideal) x0 x1 x2 x3 x4⟩, ⟨S2048x25000, val_main_v41 (F := Ideal) x0 x1 x2 x5 x6⟩] : List ((s : Shape) × (s.Idx → EReal))) _ (ix2 r j) 2 (by simp) S2048x25000
        (val_main_v41 (F := Ideal) x0 x1 x2 x5 x6) rfl rfl 25000 rfl (ix2 r (⟨q, hq'⟩ : Fin 25000)) ?_ ?_).trans ?_
      · intro b hb
        match b with
        | ⟨0, _⟩ => rfl
        | ⟨1, _⟩ => exact absurd rfl hb
      · show 25000 + q = j.val; omega
      · rw [v41_at]
        exact ((congrArg (rowOut x2 x3 x4 x5 x6 (prow x0 x1 r)) hq).trans
          (rowOut_tail1 x2 x3 x4 x5 x6 (prow x0 x1 r) q)).symm

/-- The reference's result is the adaptive log-softmax of its pooled array. -/
theorem out_eq :
    (val_main_v42 (F := Ideal) x0 x1 x2 x3 x4 x5 x6 : S2048x50000.Idx → EReal)
      = G (val_main_v21 (F := Ideal) x0 x1) x2 x3 x4 x5 x6 := by
  funext i
  obtain ⟨r, j, rfl⟩ : ∃ (r : Fin 2048) (j : Fin 50000), i = ix2 r j := ⟨i 0, i 1, eq_ix2 i⟩
  rw [out_at, G_ix2]

end Cert.ReferenceIdeal.RefValue

end
-- ==== Proof.PooledEq.lean ====
/-
  The arrays the kernel's region finds.

  Before the kernel is launched its program gathers the embedding rows, masks the padding index, sums over the bag and
  divides by the clipped count — the same chain of host operations, literal for literal, that the reference starts
  with — and narrows the pooled array and the five weight arrays to bf16. So the pooled array the region finds is the
  reference's pooled array narrowed, and each weight array is the argument narrowed; over the extended reals narrowing
  is the identity.
-/
import proofs.«107472_j41137196761528_1_alg».proof.Proof.Gen.KernelIdeal.Frame
import proofs.«107472_j41137196761528_1_alg».proof.Proof.RefRead

set_option maxRecDepth 16384

noncomputable section

namespace Cert.Proof.Entry

open Idealize.ShloMosaic Idealize.ShloMosaic.TcCoe Idealize.SL.Sem Idealize.ShloMosaic.StableHlo

section AnyValues
variable {F : FTy → Type} [FloatOps F]
variable (m : (ℓ : Loc Cert.KernelIdeal.nD Cert.KernelIdeal.τ Cert.KernelIdeal.sig) → Buf (Elt F) ℓ)

/-- The pooled array the region finds: the reference's pooling of the index and table arguments, narrowed. -/
theorem pooled_eq (c : Dev Cert.KernelIdeal.nD) :
    (Cert.KernelIdeal.Gen.V m c Cert.KernelIdeal.main_v22 : (⟨Cert.KernelIdeal.S2048x128, .bf16⟩ : BufTy).Contents (Elt F))
      = truncf .bf16 (Cert.ReferenceIdeal.ReadP.val_main_v21 (F := F)
          (m ((c : Thread Cert.KernelIdeal.nD Cert.KernelIdeal.τ).loc Cert.KernelIdeal.main_arg0))
          (m ((c : Thread Cert.KernelIdeal.nD Cert.KernelIdeal.τ).loc Cert.KernelIdeal.main_arg1))) (by decide) := by
  dsimp only [Cert.KernelIdeal.Gen.V, Cert.KernelIdeal.Gen.hostOps0]
  after_results_simp <;> rfl

theorem w1_eq (c : Dev Cert.KernelIdeal.nD) :
    (Cert.KernelIdeal.Gen.V m c Cert.KernelIdeal.main_v23 : (⟨Cert.KernelIdeal.S12502x128, .bf16⟩ : BufTy).Contents (Elt F))
      = truncf .bf16 (m ((c : Thread Cert.KernelIdeal.nD Cert.KernelIdeal.τ).loc Cert.KernelIdeal.main_arg2)) (by decide) := by
  dsimp only [Cert.KernelIdeal.Gen.V, Cert.KernelIdeal.Gen.hostOps0]
  after_results_simp <;> rfl
theorem w2_eq (c : Dev Cert.KernelIdeal.nD) :
    (Cert.KernelIdeal.Gen.V m c Cert.KernelIdeal.main_v24 : (⟨Cert.KernelIdeal.S64x128, .bf16⟩ : BufTy).Contents (Elt F))
      = truncf .bf16 (m ((c : Thread Cert.KernelIdeal.nD Cert.KernelIdeal.τ).loc Cert.KernelIdeal.main_arg3)) (by decide) := by
  dsimp only [Cert.KernelIdeal.Gen.V, Cert.KernelIdeal.Gen.hostOps0]
  after_results_simp <;> rfl
theorem w3_eq (c : Dev Cert.KernelIdeal.nD) :
    (Cert.KernelIdeal.Gen.V m c Cert.KernelIdeal.main_v25 : (⟨Cert.KernelIdeal.S12500x64, .bf16⟩ : BufTy).Contents (Elt F))
      = truncf .bf16 (m ((c : Thread Cert.KernelIdeal.nD Cert.KernelIdeal.τ).loc Cert.KernelIdeal.main_arg4)) (by decide) := by
  dsimp only [Cert.KernelIdeal.Gen.V, Cert.KernelIdeal.Gen.hostOps0]
  after_results_simp <;> rfl
theorem w4_eq (c : Dev Cert.KernelIdeal.nD) :
    (Cert.KernelIdeal.Gen.V m c Cert.KernelIdeal.main_v26 : (⟨Cert.KernelIdeal.S32x128, .bf16⟩ : BufTy).Contents (Elt F))
      = truncf .bf16 (m ((c : Thread Cert.KernelIdeal.nD Cert.KernelIdeal.τ).loc Cert.KernelIdeal.main_arg5)) (by decide) := by
  dsimp only [Cert.KernelIdeal.Gen.V, Cert.KernelIdeal.Gen.hostOps0]
  after_results_simp <;> rfl
theorem w5_eq (c : Dev Cert.KernelIdeal.nD) :
    (Cert.KernelIdeal.Gen.V m c Cert.KernelIdeal.main_v27 : (⟨Cert.KernelIdeal.S25000x32, .bf16⟩ : BufTy).Contents (Elt F))
      = truncf .bf16 (m ((c : Thread Cert.KernelIdeal.nD Cert.KernelIdeal.τ).loc Cert.KernelIdeal.main_arg6)) (by decide) := by
  dsimp only [Cert.KernelIdeal.Gen.V, Cert.KernelIdeal.Gen.hostOps0]
  after_results_simp <;> rfl

end AnyValues

/-- Over the extended reals, narrowing a float format changes nothing. -/
theorem truncf_ideal {s : Shape} {φ ψ : FTy} (x : FVec Ideal s φ) (h : ψ.bits < φ.bits) :
    (truncf ψ x h : FVec Ideal s ψ) = x := rfl

end Cert.Proof.Entry

end
-- ==== Proof.lean ====
/-
  The kernel pools the embedding bag on the host and computes, inside one Pallas region tiled over 64 blocks of 32 rows,
  a two-level adaptive log-softmax: the head's row log-softmax over 12502 scores, and for each of two tail clusters a
  projected row's log-softmax plus the head's log-probability of that cluster. The reference computes the same with
  whole-array host operations. Over the extended reals both end with one function of the arguments (Proof/Spec.lean's
  `G`): a sum over the contraction index for every product, the fold of max from −∞ for every row maximum, and
  (z − M) − log Σ exp (z − M) for every log-softmax, so no law that would need finiteness is used.
-/
import proofs.«107472_j41137196761528_1_alg».proof.Defs
import proofs.«107472_j41137196761528_1_alg».proof.Proof.Gen.Kernel
import proofs.«107472_j41137196761528_1_alg».proof.Proof.Gen.Kernel.Skeleton
import proofs.«107472_j41137196761528_1_alg».proof.Proof.Gen.Kernel.Launch
import proofs.«107472_j41137196761528_1_alg».proof.Proof.Gen.Kernel.Points
import proofs.«107472_j41137196761528_1_alg».proof.Proof.Gen.Kernel.Frame
import proofs.«107472_j41137196761528_1_alg».proof.Proof.Gen.KernelIdeal
import proofs.«107472_j41137196761528_1_alg».proof.Proof.Gen.KernelIdeal.Skeleton
import proofs.«107472_j41137196761528_1_alg».proof.Proof.Gen.KernelIdeal.Launch
import proofs.«107472_j41137196761528_1_alg».proof.Proof.Gen.KernelIdeal.Points
import proofs.«107472_j41137196761528_1_alg».proof.Proof.Gen.KernelIdeal.Frame
import proofs.«107472_j41137196761528_1_alg».proof.Proof.Gen.KernelIdeal.Value
import proofs.«107472_j41137196761528_1_alg».proof.Proof.Gen.ReferenceIdeal
import proofs.«107472_j41137196761528_1_alg».proof.Proof.Gen.Pre_finite_inputs
import proofs.«107472_j41137196761528_1_alg».proof.Proof.LibKeepdims
import proofs.«107472_j41137196761528_1_alg».proof.Proof.KernelBlock
import proofs.«107472_j41137196761528_1_alg».proof.Proof.RefRun
import proofs.«107472_j41137196761528_1_alg».proof.Proof.RefRead
import proofs.«107472_j41137196761528_1_alg».proof.Proof.RefValue
import proofs.«107472_j41137196761528_1_alg».proof.Proof.PooledEq
import Idealize.ShloMosaic.Adequacy
import Idealize.ShloMosaic.Init

set_option maxRecDepth 16384

noncomputable section

namespace Cert.Proof

open Idealize.ShloMosaic Idealize.ShloMosaic.TcCoe Idealize.SL.Sem Cert.AdaptiveSoftmax

/-- The word-level kernel runs and keeps its arguments: its generated frame. -/
theorem frame_k : Cert.frame_Kernel := fun m ρ _ => Cert.Kernel.Gen.frame m ρ

/-- So does the kernel over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The kernel's result array, named by the arguments alone. -/
theorem kernel_result (m : (ℓ : Loc Cert.KernelIdeal.nD Cert.KernelIdeal.τ Cert.KernelIdeal.sig) → Buf (Elt Ideal) ℓ)
    (c : Dev Cert.KernelIdeal.nD) :
    Cert.KernelIdeal.BlockValue.resultArr m c
      = G (Cert.ReferenceIdeal.ReadP.val_main_v21 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6)) := by
  unfold Cert.KernelIdeal.BlockValue.resultArr
  rw [Entry.pooled_eq m c, Entry.w1_eq m c, Entry.w2_eq m c, Entry.w3_eq m c, Entry.w4_eq m c, Entry.w5_eq m c]
  rfl

/-- From memories that agree on the arguments, the kernel and the reference end with the same array: the adaptive
    log-softmax of the pooled embeddings. -/
theorem algebraic : Cert.algebraic_KernelIdeal_ReferenceIdeal := by
  intro m ρ m' ρ' _ hagree
  refine ⟨fun c => Cert.KernelIdeal.BlockValue.resultArr m c, Cert.KernelIdeal.BlockValue.run m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6⟩ := hagree c
  rw [Cert.ReferenceIdeal.ReadP.val_main_v42_eq, Cert.ReferenceIdeal.RefValue.out_eq, a0, a1, a2, a3, a4, a5, a6]
  exact (kernel_result m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
